-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x256x3 : Shape := ⟨3, ![8, 256, 3]⟩
abbrev S8x256 : Shape := ⟨2, ![8, 256]⟩
abbrev S8x256x1 : Shape := ⟨3, ![8, 256, 1]⟩
abbrev S8x256x256 : Shape := ⟨3, ![8, 256, 256]⟩
abbrev S8x1x256 : Shape := ⟨3, ![8, 1, 256]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x256x3, .f32⟩
  | .local _ .vmem, ⟨1, _⟩ => ⟨S8x256x3, .f32⟩
  | .local _ .vmem, ⟨2, _⟩ => ⟨S8x256x3, .f32⟩
  | .local _ .vmem, ⟨3, _⟩ => ⟨S8x256x3, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256x3, .f32⟩
  | .local _ .vmem, ⟨8, _⟩ => ⟨S8x256x3, .f32⟩
  | .local _ .vmem, ⟨9, _⟩ => ⟨S8x256x3, .f32⟩
  | .local _ .vmem, ⟨10, _⟩ => ⟨S8x256x3, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x3_S8x256x3_0_0_0 : ∀ a, (![0, 0, 0] : Fin 3 → Nat) a + S8x256x3.size a ≤ S8x256x3.size a
  h_S8x256x3 : 0 < S8x256x3.numel
  reduces_S8x256x3_S8x256 : S8x256x3.Reduces [2] S8x256
  shapeCasts_S8x256_S8x256x1 : S8x256.ShapeCasts S8x256x1
  bitsLt_bf16_f32 : FTy.bits .bf16 < FTy.bits .f32
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x256_S8x256_2 : S8x256x256.Reduces [1] S8x256
  reducesTo_S8x4096_S_d0_1 : S8x4096.ReducesTo [0, 1] S_
  h_S_ : 0 < S_.numel
  dot_S8x256x3_S8x256x3_S8x256x256_2_2_1_1_0_0_wf : DotDims.WF S8x256x3 S8x256x3 S8x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x4096x3.size a
  hwx0_0 : ∀ i : grid0.Coords, EltTy.bits .f32 = 32 ∨ (Rect.block (s := S8x4096x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x4096.size a
  hwx0_2 : ∀ i : grid0.Coords, EltTy.bits .f32 = 32 ∨ (Rect.block (s := S8x4096) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x3.size a ≤ S8x4096x3.size a
  hwx1_0 : ∀ i : grid1.Coords, EltTy.bits .f32 = 32 ∨ (Rect.block (s := S8x4096x3) S8x256x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x3.size a ≤ S8x4096x3.size a
  hwx1_1 : ∀ i : grid1.Coords, EltTy.bits .f32 = 32 ∨ (Rect.block (s := S8x4096x3) S8x256x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x4096.size a
  hwx1_2 : ∀ i : grid1.Coords, EltTy.bits .f32 = 32 ∨ (Rect.block (s := S8x4096) S8x256.size (cc1_transform_2 i) (hinb1_2 i)).WholeWords (EltTy.packing .f32)

variable [Facts₀]

def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_arg0) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x256x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x256x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Bits.Near1.lean ====
import proofs.«129224_j45337674776760_1_alg».proof.Proof.Gen.Kernel.Launch
import proofs.«129224_j45337674776760_1_alg».proof.Proof.Gen.Kernel.Skeleton
import proofs.«129224_j45337674776760_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 0: for every point of the first cloud, the running minimum over the second cloud's tiles.
    The grid is 16 x 16; point t has row tile t / 16 (the first cloud's 256 points) and column tile t % 16
    (the second cloud's). The scratch holds, after point t, the minimum over the column tiles 0 .. t % 16 of
    the tile's row minima; the output block is written from it at the last column tile. -/
namespace Cert.Kernel.Near1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two input blocks at their literal types. -/
abbrev ablk (c : Dev nD) (t : Fin cfg0.N) : Vec F S8x256x3 .f32 := iblk V c 0 t
abbrev bblk (c : Dev nD) (t : Fin cfg0.N) : Vec F S8x256x3 .f32 := iblk V c 1 t

/-- What the scratch holds after point n: the tile's row minima joined to what the point before left, or to
    the all-infinite block where a row of tiles begins. -/
def acc (c : Dev nD) : (n : ℕ) → n < cfg0.N → Vec F S8x256 .f32
  | 0, h => k0_pay2 (ablk V c ⟨0, h⟩) (bblk V c ⟨0, h⟩) (k0_pay1 (F := F))
  | n + 1, h => k0_pay2 (ablk V c ⟨n + 1, h⟩) (bblk V c ⟨n + 1, h⟩)
      (if (n + 1) % 16 = 0 then (k0_pay1 (F := F)) else acc c n (Nat.lt_of_succ_lt h))

theorem acc_first (c : Dev nD) (t : Fin cfg0.N) (h : t.val % 16 = 0) :
    acc V c t.val t.isLt = k0_pay2 (ablk V c t) (bblk V c t) (k0_pay1 (F := F)) := by
  obtain ⟨n, hn⟩ := t
  cases n with
  | zero => rfl
  | succ n => simp only [acc] ; rw [if_pos h]

theorem acc_next (c : Dev nD) (t : Fin cfg0.N) (h : ¬ t.val % 16 = 0) :
    acc V c t.val t.isLt = k0_pay2 (ablk V c t) (bblk V c t) (acc V c (t.val - 1) (Nat.lt_of_le_of_lt (Nat.sub_le _ _) t.isLt)) := by
  obtain ⟨n, hn⟩ := t
  cases n with
  | zero => exact absurd rfl h
  | succ n => simp only [acc]; rw [if_neg h]; rfl

/-! ## The two branch conditions over the grid -/

abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 16 = 0 :=
  (by decide +kernel : ∀ t : Fin grid0.N, cond1 (grid0.coords t) ↔ t.val % 16 = 0)
abbrev cond2 (i : grid0.Coords) : Prop := k0_cond2 i = 1#1
theorem hcond2 : ∀ t : Fin cfg0.N, cond2 (grid0.coords t) ↔ t.val % 16 = 15 :=
  (by decide +kernel : ∀ t : Fin grid0.N, cond2 (grid0.coords t) ↔ t.val % 16 = 15)

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬ t.val % 16 = 15 → cfg0.idle 2 (grid0.coords t) = true := by decide +kernel
theorem noflush2 : ∀ t : Fin cfg0.N, ¬ t.val % 16 = 15 → (cfg0.win 2).flush t = false := by decide +kernel
theorem live2 : ∀ t : Fin cfg0.N, t.val % 16 = 15 → cfg0.idle 2 (grid0.coords t) = false := by decide +kernel

/-! ## The invariant: the scratch at the running minimum -/

abbrev scM : Memref sig .tc .vmem S8x256 .f32 := Memref.whole cc0_scratch0

/-- The other region's scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA_eq (c : Dev nD) :
    (Pipeline.ΦA spec0 c : sProp 𝕄) = iprop(((∃ d, owns (c : Thread nD τ) scM fullShare d) ∗ others (F := F) c) ∗ (∃ r, prngReg c r)) := by
  unfold Pipeline.ΦA others; rw [scopedRest0_eq]; simp only [scM, owns_whole]; rfl

def Phi (c : Dev nD) : (n : ℕ) → n ≤ cfg0.N → sProp 𝕄
  | 0, _ => Pipeline.ΦA spec0 c
  | n + 1, hn => iprop((owns (c : Thread nD τ) scM fullShare (acc V c n hn) ∗ others (F := F) c) ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop((owns (c : Thread nD τ) scM fullShare (acc V c n hn) ∗ others (F := F) c) ∗ (∃ r, prngReg c r)) := rfl
theorem Phi_pos (c : Dev nD) (n : ℕ) (h : n ≤ cfg0.N) (hz : n ≠ 0) :
    Phi V c n h = iprop((owns (c : Thread nD τ) scM fullShare (acc V c (n - 1) (by omega)) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = Phi V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = acc V c t.val t.isLt := by dsimp only [dat]

/-- Each input window's current buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body on whole staging memrefs, case by case -/

theorem hz : (![0, 0] : Fin 2 → Nat) = fun _ => 0 := funext fun a => by fin_cases a <;> rfl
theorem hz3 : (![0, 0, 0] : Fin 3 → Nat) = fun _ => 0 := funext fun a => by fin_cases a <;> rfl

/-- A whole-block store, the last of any, read back is its payload. -/
theorem read_store (v : View sig .tc .vmem S8x256 .f32) (f : v.ty.Contents (Elt F)) (w : S8x256.Idx → Elt F .f32)
    (L : List (View.Piece (Elt F) S8x256 .f32)) :
    v.read (Elt F) (v.writes (Elt F) f (⟨Rect.unit ![0, 0] S8x256.size inb_S8x256_S8x256_0_0, w⟩ :: L)) = w := by
  rw [View.read_writes_eq_canon _ _ _ (fun y => ⟨_, List.mem_cons_self, View.mem_set_unit_zero hz inb_S8x256_S8x256_0_0 y⟩), View.canon_cons_unit_zero hz]

set_option maxHeartbeats 2000000 in
/-- A middle column tile: the scratch is joined with the tile's row minima; the output block is not touched. -/
theorem body_mid (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k0_pay2 a b s)) -∗ K ⟨⟩))
      ⊢ wp frame (wpE (defs₀ (F := F)) Variants.none c none) E (cc0__dist1_kernel i arg2 harg2 arg3 harg3 arg4 harg4 arg5 harg5) K := by
  simp only [cc0__dist1_kernel_eq_skeleton]; unfold cc0__dist1_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  simp only [View.readAt_eq_ld, harg2.read_unread, harg3.read_unread, harg5.read_unread, View.ld_unit_zero (S := S8x256x3) hz3, View.ld_unit_zero (S := S8x256) hz]

set_option maxHeartbeats 2000000 in
/-- The first column tile of a row of tiles: the scratch is set to the all-infinite block, then joined. -/
theorem body_first (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k0_pay2 a b (k0_pay1 (F := F)))) -∗ K ⟨⟩))
      ⊢ wp frame (wpE (defs₀ (F := F)) Variants.none c none) E (cc0__dist1_kernel i arg2 harg2 arg3 harg3 arg4 harg4 arg5 harg5) K := by
  simp only [cc0__dist1_kernel_eq_skeleton]; unfold cc0__dist1_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  sl_unfold_words
  simp only [View.readAt_eq_ld, harg2.read_unread, harg3.read_unread, harg5.read_unread, View.ld_unit_zero (S := S8x256x3) hz3, View.ld_unit_zero (S := S8x256) hz, View.readCov_unit_zero (S := S8x256) _ hz]

set_option maxHeartbeats 2000000 in
/-- The last column tile: the scratch is joined, then copied into the output block. -/
theorem body_last (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare (k0_pay2 a b s) ∗ owns (c : Thread nD τ) arg5 fullShare (k0_pay2 a b s)) -∗ K ⟨⟩))
      ⊢ wp frame (wpE (defs₀ (F := F)) Variants.none c none) E (cc0__dist1_kernel i arg2 harg2 arg3 harg3 arg4 harg4 arg5 harg5) K := by
  simp only [cc0__dist1_kernel_eq_skeleton]; unfold cc0__dist1_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    rw [read_store]
    sl_unfold_words
    simp only [View.readAt_eq_ld, harg2.read_unread, harg3.read_unread, harg5.read_unread, View.ld_unit_zero (S := S8x256x3) hz3, View.ld_unit_zero (S := S8x256) hz, View.readCov_unit_zero (S := S8x256) _ hz]
  iexists _; isplitr
  swap; · iexact H5
  ipureintro
  sl_unfold_words
  rw [read_store]
  simp only [View.readAt_eq_ld, harg2.read_unread, harg3.read_unread, harg5.read_unread, View.ld_unit_zero (S := S8x256x3) hz3, View.ld_unit_zero (S := S8x256) hz, View.readCov_unit_zero (S := S8x256) _ hz]

end Cert.Kernel.Near1

end
-- ==== Proof.Bits.Near1Point.lean ====
import proofs.«129224_j45337674776760_1_alg».proof.Proof.Gen.Kernel.Launch
import proofs.«129224_j45337674776760_1_alg».proof.Proof.Gen.Kernel.Skeleton
import proofs.«129224_j45337674776760_1_alg».proof.Proof.Gen.Kernel.Points
import proofs.«129224_j45337674776760_1_alg».proof.Proof.Bits.Near1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 0, point by point: which of the three cases a point is in is read off t % 16; the invariant hands the
    body the scratch at what the point before left (at anything at the very first point) and takes it back at
    this point's running minimum. -/
namespace Cert.Kernel.Near1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st0_0 t) fullShare ((dat V c).after 0 t) from by
    unfold Dat.leavesExact; rw [live0 t], after_0]
  rw [show (dat V c).leavesExact 1 t = owns (c : Thread nD τ) (st0_1 t) fullShare ((dat V c).after 1 t) from by
    unfold Dat.leavesExact; rw [live1 t], after_1]
  have hN : t.val < 256 := lt_of_lt_of_eq t.isLt (show cfg0.N = 256 from N_0)
  by_cases h0 : t.val % 16 = 0
  · have h1 : ¬ t.val % 16 = 15 := by omega
    rw [Dat.leavesExact_idle (dat V c) 2 t (idle2 t h1) (noflush2 t h1)]
    rw [acc_first V c t h0]
    by_cases hz : t.val = 0
    · rw [Phi_castSucc V c t, Phi_zero V c _ _ hz, PhiA_eq]
      iintro ⟨⟨⟨⟨%s, HS⟩, Hoth⟩, Hg⟩, Ho, ⟨%d0, H0⟩, ⟨%d1, H1⟩, ⟨%d2, H2⟩⟩
      iapply (body_first c (grid0.coords t) _ _ _ _ _ _ _ _ ((hcond1 t).mpr h0) (fun h => h1 ((hcond2 t).mp h)) (ablk V c t) (bblk V c t) ((dat V c).before 2 t d2) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi_castSucc V c t, Phi_pos V c _ _ hz]
      iintro ⟨⟨⟨HS, Hoth⟩, Hg⟩, Ho, ⟨%d0, H0⟩, ⟨%d1, H1⟩, ⟨%d2, H2⟩⟩
      iapply (body_first c (grid0.coords t) _ _ _ _ _ _ _ _ ((hcond1 t).mpr h0) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    rw [acc_next V c t h0]
    rw [Phi_castSucc V c t, Phi_pos V c _ _ hz]
    by_cases h1 : t.val % 16 = 15
    · rw [show (dat V c).leavesExact 2 t = owns (c : Thread nD τ) (st0_2 t) fullShare ((dat V c).after 2 t) from by
        unfold Dat.leavesExact; rw [live2 t h1], after_2, acc_next V c t h0]
      iintro ⟨⟨⟨HS, Hoth⟩, Hg⟩, Ho, ⟨%d0, H0⟩, ⟨%d1, H1⟩, ⟨%d2, H2⟩⟩
      iapply (body_last c (grid0.coords t) _ _ _ _ _ _ _ _ (fun h => h0 ((hcond1 t).mp h)) ((hcond2 t).mpr h1) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat V c) 2 t (idle2 t h1) (noflush2 t h1)]
      iintro ⟨⟨⟨HS, Hoth⟩, Hg⟩, Ho, ⟨%d0, H0⟩, ⟨%d1, H1⟩, ⟨%d2, H2⟩⟩
      iapply (body_mid c (grid0.coords t) _ _ _ _ _ _ _ _ (fun h => h0 ((hcond1 t).mp h)) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After the last point the invariant gives the scratch back at contents no longer named. -/
theorem hout (c : Dev nD) : (dat V c).Φ (Fin.last cfg0.N) ⊢ Pipeline.ΦA spec0 c := by
  have hN : (Fin.last cfg0.N).val ≠ 0 := by rw [Fin.val_last]; have : cfg0.N = 256 := N_0; omega
  rw [show (dat V c).Φ (Fin.last cfg0.N) = Phi V c (Fin.last cfg0.N).val (Nat.le_of_lt_succ (Fin.last cfg0.N).isLt) from rfl, Phi_pos V c _ _ hN, PhiA_eq]
  iintro ⟨⟨HS, Hoth⟩, Hg⟩
  isplitl [HS Hoth]
  · isplitl [HS]; · iexists _; iexact HS
    iexact Hoth
  iexact Hg

end Cert.Kernel.Near1

end
-- ==== Proof.Bits.Near2.lean ====
import proofs.«129224_j45337674776760_1_alg».proof.Proof.Gen.Kernel.Launch
import proofs.«129224_j45337674776760_1_alg».proof.Proof.Gen.Kernel.Skeleton
import proofs.«129224_j45337674776760_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 1: for every point of the second cloud, the running minimum over the first cloud's tiles.
    The grid is 16 x 16; point t has row tile t / 16 (the second cloud's 256 points) and column tile t % 16
    (the first cloud's). The scratch holds, after point t, the minimum over the column tiles 0 .. t % 16 of
    the tile's column minima; the output block is written from it at the last column tile. -/
namespace Cert.Kernel.Near2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two input blocks at their literal types. -/
abbrev ablk (c : Dev nD) (t : Fin cfg1.N) : Vec F S8x256x3 .f32 := iblk V c 0 t
abbrev bblk (c : Dev nD) (t : Fin cfg1.N) : Vec F S8x256x3 .f32 := iblk V c 1 t

/-- What the scratch holds after point n: the tile's column minima joined to what the point before left, or to
    the all-infinite block where a column of tiles begins. -/
def acc (c : Dev nD) : (n : ℕ) → n < cfg1.N → Vec F S8x256 .f32
  | 0, h => k1_pay2 (ablk V c ⟨0, h⟩) (bblk V c ⟨0, h⟩) (k1_pay1 (F := F))
  | n + 1, h => k1_pay2 (ablk V c ⟨n + 1, h⟩) (bblk V c ⟨n + 1, h⟩)
      (if (n + 1) % 16 = 0 then (k1_pay1 (F := F)) else acc c n (Nat.lt_of_succ_lt h))

theorem acc_first (c : Dev nD) (t : Fin cfg1.N) (h : t.val % 16 = 0) :
    acc V c t.val t.isLt = k1_pay2 (ablk V c t) (bblk V c t) (k1_pay1 (F := F)) := by
  obtain ⟨n, hn⟩ := t
  cases n with
  | zero => rfl
  | succ n => simp only [acc] ; rw [if_pos h]

theorem acc_next (c : Dev nD) (t : Fin cfg1.N) (h : ¬ t.val % 16 = 0) :
    acc V c t.val t.isLt = k1_pay2 (ablk V c t) (bblk V c t) (acc V c (t.val - 1) (Nat.lt_of_le_of_lt (Nat.sub_le _ _) t.isLt)) := by
  obtain ⟨n, hn⟩ := t
  cases n with
  | zero => exact absurd rfl h
  | succ n => simp only [acc]; rw [if_neg h]; rfl

/-! ## The two branch conditions over the grid -/

abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 16 = 0 :=
  (by decide +kernel : ∀ t : Fin grid1.N, cond1 (grid1.coords t) ↔ t.val % 16 = 0)
abbrev cond2 (i : grid1.Coords) : Prop := k1_cond2 i = 1#1
theorem hcond2 : ∀ t : Fin cfg1.N, cond2 (grid1.coords t) ↔ t.val % 16 = 15 :=
  (by decide +kernel : ∀ t : Fin grid1.N, cond2 (grid1.coords t) ↔ t.val % 16 = 15)

theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬ t.val % 16 = 15 → cfg1.idle 2 (grid1.coords t) = true := by decide +kernel
theorem noflush2 : ∀ t : Fin cfg1.N, ¬ t.val % 16 = 15 → (cfg1.win 2).flush t = false := by decide +kernel
theorem live2 : ∀ t : Fin cfg1.N, t.val % 16 = 15 → cfg1.idle 2 (grid1.coords t) = false := by decide +kernel

/-! ## The invariant: the scratch at the running minimum -/

abbrev scM : Memref sig .tc .vmem S8x256 .f32 := Memref.whole cc1_scratch0

/-- The other region's scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA_eq (c : Dev nD) :
    (Pipeline.ΦA spec1 c : sProp 𝕄) = iprop(((∃ d, owns (c : Thread nD τ) scM fullShare d) ∗ others (F := F) c) ∗ (∃ r, prngReg c r)) := by
  unfold Pipeline.ΦA others; rw [Pipeline.scopedRest_eq_of_list spec1 c [cc1_scratch0, cc0_stg0_0, cc0_stg0_1, cc0_stg1_0, cc0_stg1_1, cc0_stg2_0, cc0_stg2_1, cc0_scratch0] (by decide) (by decide)]; simp only [scM, owns_whole]; rfl

def Phi (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop((owns (c : Thread nD τ) scM fullShare (acc V c n hn) ∗ others (F := F) c) ∗ (∃ r, prngReg c r)) := rfl
theorem Phi_pos (c : Dev nD) (n : ℕ) (h : n ≤ cfg1.N) (hz : n ≠ 0) :
    Phi V c n h = iprop((owns (c : Thread nD τ) scM fullShare (acc V c (n - 1) (by omega)) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = acc V c t.val t.isLt := by dsimp only [dat]

/-- Each input window's current buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body on whole staging memrefs, case by case -/

theorem hz : (![0, 0] : Fin 2 → Nat) = fun _ => 0 := funext fun a => by fin_cases a <;> rfl
theorem hz3 : (![0, 0, 0] : Fin 3 → Nat) = fun _ => 0 := funext fun a => by fin_cases a <;> rfl

/-- A whole-block store, the last of any, read back is its payload. -/
theorem read_store (v : View sig .tc .vmem S8x256 .f32) (f : v.ty.Contents (Elt F)) (w : S8x256.Idx → Elt F .f32)
    (L : List (View.Piece (Elt F) S8x256 .f32)) :
    v.read (Elt F) (v.writes (Elt F) f (⟨Rect.unit ![0, 0] S8x256.size inb_S8x256_S8x256_0_0, w⟩ :: L)) = w := by
  rw [View.read_writes_eq_canon _ _ _ (fun y => ⟨_, List.mem_cons_self, View.mem_set_unit_zero hz inb_S8x256_S8x256_0_0 y⟩), View.canon_cons_unit_zero hz]

set_option maxHeartbeats 2000000 in
/-- A middle column tile: the scratch is joined with the tile's column minima; the output block is not touched. -/
theorem body_mid (c : Dev nD) (i : grid1.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k1_pay2 a b s)) -∗ K ⟨⟩))
      ⊢ wp frame (wpE (defs₀ (F := F)) Variants.none c none) E (cc1__dist2_kernel i arg2 harg2 arg3 harg3 arg4 harg4 arg5 harg5) K := by
  simp only [cc1__dist2_kernel_eq_skeleton]; unfold cc1__dist2_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  simp only [View.readAt_eq_ld, harg2.read_unread, harg3.read_unread, harg5.read_unread, View.ld_unit_zero (S := S8x256x3) hz3, View.ld_unit_zero (S := S8x256) hz]

set_option maxHeartbeats 2000000 in
/-- The first column tile of a column of tiles: the scratch is set to the all-infinite block, then joined. -/
theorem body_first (c : Dev nD) (i : grid1.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k1_pay2 a b (k1_pay1 (F := F)))) -∗ K ⟨⟩))
      ⊢ wp frame (wpE (defs₀ (F := F)) Variants.none c none) E (cc1__dist2_kernel i arg2 harg2 arg3 harg3 arg4 harg4 arg5 harg5) K := by
  simp only [cc1__dist2_kernel_eq_skeleton]; unfold cc1__dist2_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  sl_unfold_words
  simp only [View.readAt_eq_ld, harg2.read_unread, harg3.read_unread, harg5.read_unread, View.ld_unit_zero (S := S8x256x3) hz3, View.ld_unit_zero (S := S8x256) hz, View.readCov_unit_zero (S := S8x256) _ hz]

set_option maxHeartbeats 2000000 in
/-- The last column tile: the scratch is joined, then copied into the output block. -/
theorem body_last (c : Dev nD) (i : grid1.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare (k1_pay2 a b s) ∗ owns (c : Thread nD τ) arg5 fullShare (k1_pay2 a b s)) -∗ K ⟨⟩))
      ⊢ wp frame (wpE (defs₀ (F := F)) Variants.none c none) E (cc1__dist2_kernel i arg2 harg2 arg3 harg3 arg4 harg4 arg5 harg5) K := by
  simp only [cc1__dist2_kernel_eq_skeleton]; unfold cc1__dist2_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    rw [read_store]
    sl_unfold_words
    simp only [View.readAt_eq_ld, harg2.read_unread, harg3.read_unread, harg5.read_unread, View.ld_unit_zero (S := S8x256x3) hz3, View.ld_unit_zero (S := S8x256) hz, View.readCov_unit_zero (S := S8x256) _ hz]
  iexists _; isplitr
  swap; · iexact H5
  ipureintro
  sl_unfold_words
  rw [read_store]
  simp only [View.readAt_eq_ld, harg2.read_unread, harg3.read_unread, harg5.read_unread, View.ld_unit_zero (S := S8x256x3) hz3, View.ld_unit_zero (S := S8x256) hz, View.readCov_unit_zero (S := S8x256) _ hz]

end Cert.Kernel.Near2

end
-- ==== Proof.Bits.Near2Point.lean ====
import proofs.«129224_j45337674776760_1_alg».proof.Proof.Gen.Kernel.Launch
import proofs.«129224_j45337674776760_1_alg».proof.Proof.Gen.Kernel.Skeleton
import proofs.«129224_j45337674776760_1_alg».proof.Proof.Gen.Kernel.Points
import proofs.«129224_j45337674776760_1_alg».proof.Proof.Bits.Near2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 1, point by point: which of the three cases a point is in is read off t % 16; the invariant hands the
    body the scratch at what the point before left (at anything at the very first point) and takes it back at
    this point's running minimum. -/
namespace Cert.Kernel.Near2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live0 t], after_0]
  rw [show (dat V c).leavesExact 1 t = owns (c : Thread nD τ) (st1_1 t) fullShare ((dat V c).after 1 t) from by
    unfold Dat.leavesExact; rw [live1 t], after_1]
  have hN : t.val < 256 := lt_of_lt_of_eq t.isLt (show cfg1.N = 256 from N_1)
  by_cases h0 : t.val % 16 = 0
  · have h1 : ¬ t.val % 16 = 15 := by omega
    rw [Dat.leavesExact_idle (dat V c) 2 t (idle2 t h1) (noflush2 t h1)]
    rw [acc_first V c t h0]
    by_cases hz : t.val = 0
    · rw [Phi_castSucc V c t, Phi_zero V c _ _ hz, PhiA_eq]
      iintro ⟨⟨⟨⟨%s, HS⟩, Hoth⟩, Hg⟩, Ho, ⟨%d0, H0⟩, ⟨%d1, H1⟩, ⟨%d2, H2⟩⟩
      iapply (body_first c (grid1.coords t) _ _ _ _ _ _ _ _ ((hcond1 t).mpr h0) (fun h => h1 ((hcond2 t).mp h)) (ablk V c t) (bblk V c t) ((dat V c).before 2 t d2) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi_castSucc V c t, Phi_pos V c _ _ hz]
      iintro ⟨⟨⟨HS, Hoth⟩, Hg⟩, Ho, ⟨%d0, H0⟩, ⟨%d1, H1⟩, ⟨%d2, H2⟩⟩
      iapply (body_first c (grid1.coords t) _ _ _ _ _ _ _ _ ((hcond1 t).mpr h0) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    rw [acc_next V c t h0]
    rw [Phi_castSucc V c t, Phi_pos V c _ _ hz]
    by_cases h1 : t.val % 16 = 15
    · rw [show (dat V c).leavesExact 2 t = owns (c : Thread nD τ) (st1_2 t) fullShare ((dat V c).after 2 t) from by
        unfold Dat.leavesExact; rw [live2 t h1], after_2, acc_next V c t h0]
      iintro ⟨⟨⟨HS, Hoth⟩, Hg⟩, Ho, ⟨%d0, H0⟩, ⟨%d1, H1⟩, ⟨%d2, H2⟩⟩
      iapply (body_last c (grid1.coords t) _ _ _ _ _ _ _ _ (fun h => h0 ((hcond1 t).mp h)) ((hcond2 t).mpr h1) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat V c) 2 t (idle2 t h1) (noflush2 t h1)]
      iintro ⟨⟨⟨HS, Hoth⟩, Hg⟩, Ho, ⟨%d0, H0⟩, ⟨%d1, H1⟩, ⟨%d2, H2⟩⟩
      iapply (body_mid c (grid1.coords t) _ _ _ _ _ _ _ _ (fun h => h0 ((hcond1 t).mp h)) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the scratch back at contents no longer named. -/
theorem hout (c : Dev nD) : (dat V c).Φ (Fin.last cfg1.N) ⊢ Pipeline.ΦA spec1 c := by
  have hN : (Fin.last cfg1.N).val ≠ 0 := by rw [Fin.val_last]; have : cfg1.N = 256 := N_1; omega
  rw [show (dat V c).Φ (Fin.last cfg1.N) = Phi V c (Fin.last cfg1.N).val (Nat.le_of_lt_succ (Fin.last cfg1.N).isLt) from rfl, Phi_pos V c _ _ hN, PhiA_eq]
  iintro ⟨⟨HS, Hoth⟩, Hg⟩
  isplitl [HS Hoth]
  · isplitl [HS]; · iexists _; iexact HS
    iexact Hoth
  iexact Hg

end Cert.Kernel.Near2

end
-- ==== Proof.Bits.Launch.lean ====
import proofs.«129224_j45337674776760_1_alg».proof.Proof.Gen.Kernel.Launch
import proofs.«129224_j45337674776760_1_alg».proof.Proof.Gen.Kernel.Skeleton
import proofs.«129224_j45337674776760_1_alg».proof.Proof.Gen.Kernel.Points
import proofs.«129224_j45337674776760_1_alg».proof.Proof.Gen.Kernel.Regions
import proofs.«129224_j45337674776760_1_alg».proof.Proof.Bits.Near1Point
import proofs.«129224_j45337674776760_1_alg».proof.Proof.Bits.Near2Point
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The whole program: region 0, region 1, then the host's two means and their sum. Between items every unscoped
    buffer is held at named contents: the launch memory, then region 0's result array at what its write-backs leave,
    then region 1's likewise, then the host operations' results. Every weakly fair execution ends with every unscoped
    buffer at the last of these; the arguments are never written, and the result is the host operations' term of the
    two regions' result arrays. -/
namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (Near1.dat (V0 m) c).arrAt w cfg0.N
theorem W1_arr (c : Dev nD) (w : Fin cfg0.W) :
    W1 m c (Proc.devRef .tc (Pipeline.arrRef spec0 w)) = (Near1.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Near1.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After region 1. -/
def W2 (c : Dev nD) : Valuation τ sig (Elt F) :=
  Pipeline.withArrays spec1 c (W1 m c) fun w => (Near2.dat (V1 m) c).arrAt w cfg1.N
theorem W2_arr (c : Dev nD) (w : Fin cfg1.W) :
    W2 m c (Proc.devRef .tc (Pipeline.arrRef spec1 w)) = (Near2.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Near2.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Near1.dat (V0 m) c
  | ⟨1, _⟩ => fun c => Near2.dat (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- unification of a library lemma stated over the pinned configuration with the printed one unfolds plain definitions
set_option backward.isDefEq.respectTransparency.types false in
/-- Region 0 as a segment: entered with every unscoped buffer at the contents before it, left with its result array at
    what its write-backs leave and every other buffer as entered; its arrays are split out of the unscoped buffers at entry
    and put back at exit; the generator register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Near1.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Near1.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions
set_option backward.isDefEq.respectTransparency.types false in
/-- Region 1 as a segment: entered with every unscoped buffer at the contents before it, left with its result array at
    what its write-backs leave and every other buffer as entered; its arrays are split out of the unscoped buffers at entry
    and put back at exit; the generator register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Near2.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Near2.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment from the contents after region 1. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (hseg m) ]
theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W3 m c) ∗ ∃ r, prngReg c r)

set_option backward.isDefEq.respectTransparency.types false in
/-- From any memory with zero counters every weakly fair execution terminates, nothing faulting, with every unscoped
    buffer at the contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Launch

end
-- ==== Proof.Bits.LaunchPost.lean ====
import proofs.«129224_j45337674776760_1_alg».proof.Proof.Gen.Kernel.Launch
import proofs.«129224_j45337674776760_1_alg».proof.Proof.Gen.Kernel.Skeleton
import proofs.«129224_j45337674776760_1_alg».proof.Proof.Gen.Kernel.Points
import proofs.«129224_j45337674776760_1_alg».proof.Proof.Bits.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! What the run's last valuation holds where the claims look: the two arguments are as launched (no item writes them),
    and the result is the host's two means and their sum, of region 0's and region 1's result arrays. -/
namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 reads the first argument through window 0 and never writes it. -/
theorem V1_main_arg0 (c : Dev nD) : V1 m c main_arg0 = m ((c : Thread nD τ).loc main_arg0) :=
  (W1_arr m c 0).trans (((Near1.dat (V0 m) c).arrAt_in 0 rfl _).trans (Near1.A_eq (V0 m) c 0))
theorem V1_main_arg1 (c : Dev nD) : V1 m c main_arg1 = m ((c : Thread nD τ).loc main_arg1) :=
  (W1_arr m c 1).trans (((Near1.dat (V0 m) c).arrAt_in 1 rfl _).trans (Near1.A_eq (V0 m) c 1))
/-- So does region 1. -/
theorem V2_main_arg0 (c : Dev nD) : V2 m c main_arg0 = m ((c : Thread nD τ).loc main_arg0) :=
  (W2_arr m c 0).trans ((((Near2.dat (V1 m) c).arrAt_in 0 rfl _).trans (Near2.A_eq (V1 m) c 0)).trans (V1_main_arg0 m c))
theorem V2_main_arg1 (c : Dev nD) : V2 m c main_arg1 = m ((c : Thread nD τ).loc main_arg1) :=
  (W2_arr m c 1).trans ((((Near2.dat (V1 m) c).arrAt_in 1 rfl _).trans (Near2.A_eq (V1 m) c 1)).trans (V1_main_arg1 m c))

/-- The host operations write neither. -/
theorem W3_main_arg0 (c : Dev nD) : W3 m c (Proc.devRef .tc main_arg0) = m ((c : Thread nD τ).loc main_arg0) :=
  (StableHlo.after_of_writes_sub hostOps2 (W2 m c) hostOps2_writes (r := main_arg0) (by decide)).trans (V2_main_arg0 m c)
theorem W3_main_arg1 (c : Dev nD) : W3 m c (Proc.devRef .tc main_arg1) = m ((c : Thread nD τ).loc main_arg1) :=
  (StableHlo.after_of_writes_sub hostOps2 (W2 m c) hostOps2_writes (r := main_arg1) (by decide)).trans (V2_main_arg1 m c)

/-- Region 0's result array is its output window's array after every write-back; region 1 leaves it alone. -/
theorem V2_main_v0 (c : Dev nD) : V2 m c main_v0 = (Near1.dat (V0 m) c).arrAt 2 cfg0.N :=
  (W2_of_ne m c main_v0 (by decide)).trans (W1_arr m c 2)
theorem V2_main_v1 (c : Dev nD) : V2 m c main_v1 = (Near2.dat (V1 m) c).arrAt 2 cfg1.N :=
  W2_arr m c 2

/-- The two means and their sum, of two arrays of distances. -/
def means (d1 d2 : (⟨S8x4096, .f32⟩ : BufTy).Contents (Elt F)) : (⟨S_, .f32⟩ : BufTy).Contents (Elt F) :=
  addf (Host.divf (Host.reduceAdd d1 (constant S_ .f32 0x00000000#32) reducesTo_S8x4096_S_d0_1 h_S_) (constant S_ .f32 0x47000000#32))
    (Host.divf (Host.reduceAdd d2 (constant S_ .f32 0x00000000#32) reducesTo_S8x4096_S_d0_1 h_S_) (constant S_ .f32 0x47000000#32))

/-- The result buffer after the host operations. -/
theorem W3_main_v6 (c : Dev nD) :
    (W3 m c (Proc.devRef .tc main_v6) : (⟨S_, .f32⟩ : BufTy).Contents (Elt F)) = means (F := F) (V2 m c main_v0) (V2 m c main_v1) := by
  show StableHlo.after hostOps2 (W2 m c) (Proc.devRef .tc main_v6) = _
  unfold means
  after_results

/-- The frame: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

/-- The value: the result ends at the means of the two regions' result arrays, the arguments as launched. -/
theorem run_value : θ_run defs (onTc (τ := τ) (main (F := F))) ⟨m, fun _ => 0, ρ⟩ (fun r => ∀ c : Dev nD,
      r.2.mem ((c.tc : Thread nD τ).loc main_v6) = means (F := F) ((Near1.dat (V0 m) c).arrAt 2 cfg0.N) ((Near2.dat (V1 m) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans ((W3_main_v6 m c).trans (by rw [V2_main_v0, V2_main_v1])),
     (h c _ (mem_uc main_arg0 (by decide))).trans (W3_main_arg0 m c),
     (h c _ (mem_uc main_arg1 (by decide))).trans (W3_main_arg1 m c)⟩) (run_all m ρ)

end Cert.Kernel.Launch

end
-- ==== Proof.Near1.lean ====
import proofs.«129224_j45337674776760_1_alg».proof.Proof.Gen.KernelIdeal.Launch
import proofs.«129224_j45337674776760_1_alg».proof.Proof.Gen.KernelIdeal.Skeleton
import proofs.«129224_j45337674776760_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 0: for every point of the first cloud, the running minimum over the second cloud's tiles.
    The grid is 16 x 16; point t has row tile t / 16 (the first cloud's 256 points) and column tile t % 16
    (the second cloud's). The scratch holds, after point t, the minimum over the column tiles 0 .. t % 16 of
    the tile's row minima; the output block is written from it at the last column tile. -/
namespace Cert.KernelIdeal.Near1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two input blocks at their literal types. -/
abbrev ablk (c : Dev nD) (t : Fin cfg0.N) : Vec F S8x256x3 .f32 := iblk V c 0 t
abbrev bblk (c : Dev nD) (t : Fin cfg0.N) : Vec F S8x256x3 .f32 := iblk V c 1 t

/-- What the scratch holds after point n: the tile's row minima joined to what the point before left, or to
    the all-infinite block where a row of tiles begins. -/
def acc (c : Dev nD) : (n : ℕ) → n < cfg0.N → Vec F S8x256 .f32
  | 0, h => k0_pay2 (ablk V c ⟨0, h⟩) (bblk V c ⟨0, h⟩) (k0_pay1 (F := F))
  | n + 1, h => k0_pay2 (ablk V c ⟨n + 1, h⟩) (bblk V c ⟨n + 1, h⟩)
      (if (n + 1) % 16 = 0 then (k0_pay1 (F := F)) else acc c n (Nat.lt_of_succ_lt h))

theorem acc_first (c : Dev nD) (t : Fin cfg0.N) (h : t.val % 16 = 0) :
    acc V c t.val t.isLt = k0_pay2 (ablk V c t) (bblk V c t) (k0_pay1 (F := F)) := by
  obtain ⟨n, hn⟩ := t
  cases n with
  | zero => rfl
  | succ n => simp only [acc] ; rw [if_pos h]

theorem acc_next (c : Dev nD) (t : Fin cfg0.N) (h : ¬ t.val % 16 = 0) :
    acc V c t.val t.isLt = k0_pay2 (ablk V c t) (bblk V c t) (acc V c (t.val - 1) (Nat.lt_of_le_of_lt (Nat.sub_le _ _) t.isLt)) := by
  obtain ⟨n, hn⟩ := t
  cases n with
  | zero => exact absurd rfl h
  | succ n => simp only [acc]; rw [if_neg h]; rfl

/-! ## The two branch conditions over the grid -/

abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 16 = 0 :=
  (by decide +kernel : ∀ t : Fin grid0.N, cond1 (grid0.coords t) ↔ t.val % 16 = 0)
abbrev cond2 (i : grid0.Coords) : Prop := k0_cond2 i = 1#1
theorem hcond2 : ∀ t : Fin cfg0.N, cond2 (grid0.coords t) ↔ t.val % 16 = 15 :=
  (by decide +kernel : ∀ t : Fin grid0.N, cond2 (grid0.coords t) ↔ t.val % 16 = 15)

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬ t.val % 16 = 15 → cfg0.idle 2 (grid0.coords t) = true := by decide +kernel
theorem noflush2 : ∀ t : Fin cfg0.N, ¬ t.val % 16 = 15 → (cfg0.win 2).flush t = false := by decide +kernel
theorem live2 : ∀ t : Fin cfg0.N, t.val % 16 = 15 → cfg0.idle 2 (grid0.coords t) = false := by decide +kernel

/-! ## The invariant: the scratch at the running minimum -/

abbrev scM : Memref sig .tc .vmem S8x256 .f32 := Memref.whole cc0_scratch0

/-- The other region's scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA_eq (c : Dev nD) :
    (Pipeline.ΦA spec0 c : sProp 𝕄) = iprop(((∃ d, owns (c : Thread nD τ) scM fullShare d) ∗ others (F := F) c) ∗ (∃ r, prngReg c r)) := by
  unfold Pipeline.ΦA others; rw [scopedRest0_eq]; simp only [scM, owns_whole]; rfl

def Phi (c : Dev nD) : (n : ℕ) → n ≤ cfg0.N → sProp 𝕄
  | 0, _ => Pipeline.ΦA spec0 c
  | n + 1, hn => iprop((owns (c : Thread nD τ) scM fullShare (acc V c n hn) ∗ others (F := F) c) ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop((owns (c : Thread nD τ) scM fullShare (acc V c n hn) ∗ others (F := F) c) ∗ (∃ r, prngReg c r)) := rfl
theorem Phi_pos (c : Dev nD) (n : ℕ) (h : n ≤ cfg0.N) (hz : n ≠ 0) :
    Phi V c n h = iprop((owns (c : Thread nD τ) scM fullShare (acc V c (n - 1) (by omega)) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = Phi V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = acc V c t.val t.isLt := by dsimp only [dat]

/-- Each input window's current buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body on whole staging memrefs, case by case -/

theorem hz : (![0, 0] : Fin 2 → Nat) = fun _ => 0 := funext fun a => by fin_cases a <;> rfl
theorem hz3 : (![0, 0, 0] : Fin 3 → Nat) = fun _ => 0 := funext fun a => by fin_cases a <;> rfl

/-- A whole-block store, the last of any, read back is its payload. -/
theorem read_store (v : View sig .tc .vmem S8x256 .f32) (f : v.ty.Contents (Elt F)) (w : S8x256.Idx → Elt F .f32)
    (L : List (View.Piece (Elt F) S8x256 .f32)) :
    v.read (Elt F) (v.writes (Elt F) f (⟨Rect.unit ![0, 0] S8x256.size inb_S8x256_S8x256_0_0, w⟩ :: L)) = w := by
  rw [View.read_writes_eq_canon _ _ _ (fun y => ⟨_, List.mem_cons_self, View.mem_set_unit_zero hz inb_S8x256_S8x256_0_0 y⟩), View.canon_cons_unit_zero hz]

set_option maxHeartbeats 2000000 in
/-- A middle column tile: the scratch is joined with the tile's row minima; the output block is not touched. -/
theorem body_mid (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k0_pay2 a b s)) -∗ K ⟨⟩))
      ⊢ wp frame (wpE (defs₀ (F := F)) Variants.none c none) E (cc0__dist1_kernel i arg2 harg2 arg3 harg3 arg4 harg4 arg5 harg5) K := by
  simp only [cc0__dist1_kernel_eq_skeleton]; unfold cc0__dist1_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  simp only [View.readAt_eq_ld, harg2.read_unread, harg3.read_unread, harg5.read_unread, View.ld_unit_zero (S := S8x256x3) hz3, View.ld_unit_zero (S := S8x256) hz]

set_option maxHeartbeats 2000000 in
/-- The first column tile of a row of tiles: the scratch is set to the all-infinite block, then joined. -/
theorem body_first (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k0_pay2 a b (k0_pay1 (F := F)))) -∗ K ⟨⟩))
      ⊢ wp frame (wpE (defs₀ (F := F)) Variants.none c none) E (cc0__dist1_kernel i arg2 harg2 arg3 harg3 arg4 harg4 arg5 harg5) K := by
  simp only [cc0__dist1_kernel_eq_skeleton]; unfold cc0__dist1_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  sl_unfold_words
  simp only [View.readAt_eq_ld, harg2.read_unread, harg3.read_unread, harg5.read_unread, View.ld_unit_zero (S := S8x256x3) hz3, View.ld_unit_zero (S := S8x256) hz, View.readCov_unit_zero (S := S8x256) _ hz]

set_option maxHeartbeats 2000000 in
/-- The last column tile: the scratch is joined, then copied into the output block. -/
theorem body_last (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare (k0_pay2 a b s) ∗ owns (c : Thread nD τ) arg5 fullShare (k0_pay2 a b s)) -∗ K ⟨⟩))
      ⊢ wp frame (wpE (defs₀ (F := F)) Variants.none c none) E (cc0__dist1_kernel i arg2 harg2 arg3 harg3 arg4 harg4 arg5 harg5) K := by
  simp only [cc0__dist1_kernel_eq_skeleton]; unfold cc0__dist1_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    rw [read_store]
    sl_unfold_words
    simp only [View.readAt_eq_ld, harg2.read_unread, harg3.read_unread, harg5.read_unread, View.ld_unit_zero (S := S8x256x3) hz3, View.ld_unit_zero (S := S8x256) hz, View.readCov_unit_zero (S := S8x256) _ hz]
  iexists _; isplitr
  swap; · iexact H5
  ipureintro
  sl_unfold_words
  rw [read_store]
  simp only [View.readAt_eq_ld, harg2.read_unread, harg3.read_unread, harg5.read_unread, View.ld_unit_zero (S := S8x256x3) hz3, View.ld_unit_zero (S := S8x256) hz, View.readCov_unit_zero (S := S8x256) _ hz]

end Cert.KernelIdeal.Near1

end
-- ==== Proof.Near1Point.lean ====
import proofs.«129224_j45337674776760_1_alg».proof.Proof.Gen.KernelIdeal.Launch
import proofs.«129224_j45337674776760_1_alg».proof.Proof.Gen.KernelIdeal.Skeleton
import proofs.«129224_j45337674776760_1_alg».proof.Proof.Gen.KernelIdeal.Points
import proofs.«129224_j45337674776760_1_alg».proof.Proof.Near1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 0, point by point: which of the three cases a point is in is read off t % 16; the invariant hands the
    body the scratch at what the point before left (at anything at the very first point) and takes it back at
    this point's running minimum. -/
namespace Cert.KernelIdeal.Near1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st0_0 t) fullShare ((dat V c).after 0 t) from by
    unfold Dat.leavesExact; rw [live0 t], after_0]
  rw [show (dat V c).leavesExact 1 t = owns (c : Thread nD τ) (st0_1 t) fullShare ((dat V c).after 1 t) from by
    unfold Dat.leavesExact; rw [live1 t], after_1]
  have hN : t.val < 256 := lt_of_lt_of_eq t.isLt (show cfg0.N = 256 from N_0)
  by_cases h0 : t.val % 16 = 0
  · have h1 : ¬ t.val % 16 = 15 := by omega
    rw [Dat.leavesExact_idle (dat V c) 2 t (idle2 t h1) (noflush2 t h1)]
    rw [acc_first V c t h0]
    by_cases hz : t.val = 0
    · rw [Phi_castSucc V c t, Phi_zero V c _ _ hz, PhiA_eq]
      iintro ⟨⟨⟨⟨%s, HS⟩, Hoth⟩, Hg⟩, Ho, ⟨%d0, H0⟩, ⟨%d1, H1⟩, ⟨%d2, H2⟩⟩
      iapply (body_first c (grid0.coords t) _ _ _ _ _ _ _ _ ((hcond1 t).mpr h0) (fun h => h1 ((hcond2 t).mp h)) (ablk V c t) (bblk V c t) ((dat V c).before 2 t d2) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi_castSucc V c t, Phi_pos V c _ _ hz]
      iintro ⟨⟨⟨HS, Hoth⟩, Hg⟩, Ho, ⟨%d0, H0⟩, ⟨%d1, H1⟩, ⟨%d2, H2⟩⟩
      iapply (body_first c (grid0.coords t) _ _ _ _ _ _ _ _ ((hcond1 t).mpr h0) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    rw [acc_next V c t h0]
    rw [Phi_castSucc V c t, Phi_pos V c _ _ hz]
    by_cases h1 : t.val % 16 = 15
    · rw [show (dat V c).leavesExact 2 t = owns (c : Thread nD τ) (st0_2 t) fullShare ((dat V c).after 2 t) from by
        unfold Dat.leavesExact; rw [live2 t h1], after_2, acc_next V c t h0]
      iintro ⟨⟨⟨HS, Hoth⟩, Hg⟩, Ho, ⟨%d0, H0⟩, ⟨%d1, H1⟩, ⟨%d2, H2⟩⟩
      iapply (body_last c (grid0.coords t) _ _ _ _ _ _ _ _ (fun h => h0 ((hcond1 t).mp h)) ((hcond2 t).mpr h1) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat V c) 2 t (idle2 t h1) (noflush2 t h1)]
      iintro ⟨⟨⟨HS, Hoth⟩, Hg⟩, Ho, ⟨%d0, H0⟩, ⟨%d1, H1⟩, ⟨%d2, H2⟩⟩
      iapply (body_mid c (grid0.coords t) _ _ _ _ _ _ _ _ (fun h => h0 ((hcond1 t).mp h)) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After the last point the invariant gives the scratch back at contents no longer named. -/
theorem hout (c : Dev nD) : (dat V c).Φ (Fin.last cfg0.N) ⊢ Pipeline.ΦA spec0 c := by
  have hN : (Fin.last cfg0.N).val ≠ 0 := by rw [Fin.val_last]; have : cfg0.N = 256 := N_0; omega
  rw [show (dat V c).Φ (Fin.last cfg0.N) = Phi V c (Fin.last cfg0.N).val (Nat.le_of_lt_succ (Fin.last cfg0.N).isLt) from rfl, Phi_pos V c _ _ hN, PhiA_eq]
  iintro ⟨⟨HS, Hoth⟩, Hg⟩
  isplitl [HS Hoth]
  · isplitl [HS]; · iexists _; iexact HS
    iexact Hoth
  iexact Hg

end Cert.KernelIdeal.Near1

end
-- ==== Proof.Near2.lean ====
import proofs.«129224_j45337674776760_1_alg».proof.Proof.Gen.KernelIdeal.Launch
import proofs.«129224_j45337674776760_1_alg».proof.Proof.Gen.KernelIdeal.Skeleton
import proofs.«129224_j45337674776760_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 1: for every point of the second cloud, the running minimum over the first cloud's tiles.
    The grid is 16 x 16; point t has row tile t / 16 (the second cloud's 256 points) and column tile t % 16
    (the first cloud's). The scratch holds, after point t, the minimum over the column tiles 0 .. t % 16 of
    the tile's column minima; the output block is written from it at the last column tile. -/
namespace Cert.KernelIdeal.Near2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two input blocks at their literal types. -/
abbrev ablk (c : Dev nD) (t : Fin cfg1.N) : Vec F S8x256x3 .f32 := iblk V c 0 t
abbrev bblk (c : Dev nD) (t : Fin cfg1.N) : Vec F S8x256x3 .f32 := iblk V c 1 t

/-- What the scratch holds after point n: the tile's column minima joined to what the point before left, or to
    the all-infinite block where a column of tiles begins. -/
def acc (c : Dev nD) : (n : ℕ) → n < cfg1.N → Vec F S8x256 .f32
  | 0, h => k1_pay2 (ablk V c ⟨0, h⟩) (bblk V c ⟨0, h⟩) (k1_pay1 (F := F))
  | n + 1, h => k1_pay2 (ablk V c ⟨n + 1, h⟩) (bblk V c ⟨n + 1, h⟩)
      (if (n + 1) % 16 = 0 then (k1_pay1 (F := F)) else acc c n (Nat.lt_of_succ_lt h))

theorem acc_first (c : Dev nD) (t : Fin cfg1.N) (h : t.val % 16 = 0) :
    acc V c t.val t.isLt = k1_pay2 (ablk V c t) (bblk V c t) (k1_pay1 (F := F)) := by
  obtain ⟨n, hn⟩ := t
  cases n with
  | zero => rfl
  | succ n => simp only [acc] ; rw [if_pos h]

theorem acc_next (c : Dev nD) (t : Fin cfg1.N) (h : ¬ t.val % 16 = 0) :
    acc V c t.val t.isLt = k1_pay2 (ablk V c t) (bblk V c t) (acc V c (t.val - 1) (Nat.lt_of_le_of_lt (Nat.sub_le _ _) t.isLt)) := by
  obtain ⟨n, hn⟩ := t
  cases n with
  | zero => exact absurd rfl h
  | succ n => simp only [acc]; rw [if_neg h]; rfl

/-! ## The two branch conditions over the grid -/

abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 16 = 0 :=
  (by decide +kernel : ∀ t : Fin grid1.N, cond1 (grid1.coords t) ↔ t.val % 16 = 0)
abbrev cond2 (i : grid1.Coords) : Prop := k1_cond2 i = 1#1
theorem hcond2 : ∀ t : Fin cfg1.N, cond2 (grid1.coords t) ↔ t.val % 16 = 15 :=
  (by decide +kernel : ∀ t : Fin grid1.N, cond2 (grid1.coords t) ↔ t.val % 16 = 15)

theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬ t.val % 16 = 15 → cfg1.idle 2 (grid1.coords t) = true := by decide +kernel
theorem noflush2 : ∀ t : Fin cfg1.N, ¬ t.val % 16 = 15 → (cfg1.win 2).flush t = false := by decide +kernel
theorem live2 : ∀ t : Fin cfg1.N, t.val % 16 = 15 → cfg1.idle 2 (grid1.coords t) = false := by decide +kernel

/-! ## The invariant: the scratch at the running minimum -/

abbrev scM : Memref sig .tc .vmem S8x256 .f32 := Memref.whole cc1_scratch0

/-- The other region's scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA_eq (c : Dev nD) :
    (Pipeline.ΦA spec1 c : sProp 𝕄) = iprop(((∃ d, owns (c : Thread nD τ) scM fullShare d) ∗ others (F := F) c) ∗ (∃ r, prngReg c r)) := by
  unfold Pipeline.ΦA others; rw [Pipeline.scopedRest_eq_of_list spec1 c [cc1_scratch0, cc0_stg0_0, cc0_stg0_1, cc0_stg1_0, cc0_stg1_1, cc0_stg2_0, cc0_stg2_1, cc0_scratch0] (by decide) (by decide)]; simp only [scM, owns_whole]; rfl

def Phi (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop((owns (c : Thread nD τ) scM fullShare (acc V c n hn) ∗ others (F := F) c) ∗ (∃ r, prngReg c r)) := rfl
theorem Phi_pos (c : Dev nD) (n : ℕ) (h : n ≤ cfg1.N) (hz : n ≠ 0) :
    Phi V c n h = iprop((owns (c : Thread nD τ) scM fullShare (acc V c (n - 1) (by omega)) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = acc V c t.val t.isLt := by dsimp only [dat]

/-- Each input window's current buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body on whole staging memrefs, case by case -/

theorem hz : (![0, 0] : Fin 2 → Nat) = fun _ => 0 := funext fun a => by fin_cases a <;> rfl
theorem hz3 : (![0, 0, 0] : Fin 3 → Nat) = fun _ => 0 := funext fun a => by fin_cases a <;> rfl

/-- A whole-block store, the last of any, read back is its payload. -/
theorem read_store (v : View sig .tc .vmem S8x256 .f32) (f : v.ty.Contents (Elt F)) (w : S8x256.Idx → Elt F .f32)
    (L : List (View.Piece (Elt F) S8x256 .f32)) :
    v.read (Elt F) (v.writes (Elt F) f (⟨Rect.unit ![0, 0] S8x256.size inb_S8x256_S8x256_0_0, w⟩ :: L)) = w := by
  rw [View.read_writes_eq_canon _ _ _ (fun y => ⟨_, List.mem_cons_self, View.mem_set_unit_zero hz inb_S8x256_S8x256_0_0 y⟩), View.canon_cons_unit_zero hz]

set_option maxHeartbeats 2000000 in
/-- A middle column tile: the scratch is joined with the tile's column minima; the output block is not touched. -/
theorem body_mid (c : Dev nD) (i : grid1.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k1_pay2 a b s)) -∗ K ⟨⟩))
      ⊢ wp frame (wpE (defs₀ (F := F)) Variants.none c none) E (cc1__dist2_kernel i arg2 harg2 arg3 harg3 arg4 harg4 arg5 harg5) K := by
  simp only [cc1__dist2_kernel_eq_skeleton]; unfold cc1__dist2_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  simp only [View.readAt_eq_ld, harg2.read_unread, harg3.read_unread, harg5.read_unread, View.ld_unit_zero (S := S8x256x3) hz3, View.ld_unit_zero (S := S8x256) hz]

set_option maxHeartbeats 2000000 in
/-- The first column tile of a column of tiles: the scratch is set to the all-infinite block, then joined. -/
theorem body_first (c : Dev nD) (i : grid1.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : cond1 i) (hc2 : ¬ cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (k1_pay2 a b (k1_pay1 (F := F)))) -∗ K ⟨⟩))
      ⊢ wp frame (wpE (defs₀ (F := F)) Variants.none c none) E (cc1__dist2_kernel i arg2 harg2 arg3 harg3 arg4 harg4 arg5 harg5) K := by
  simp only [cc1__dist2_kernel_eq_skeleton]; unfold cc1__dist2_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr
  swap; · iexact H5
  ipureintro
  rw [read_store]
  sl_unfold_words
  simp only [View.readAt_eq_ld, harg2.read_unread, harg3.read_unread, harg5.read_unread, View.ld_unit_zero (S := S8x256x3) hz3, View.ld_unit_zero (S := S8x256) hz, View.readCov_unit_zero (S := S8x256) _ hz]

set_option maxHeartbeats 2000000 in
/-- The last column tile: the scratch is joined, then copied into the output block. -/
theorem body_last (c : Dev nD) (i : grid1.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x256 .f32) (harg5 : arg5.IsWhole)
    (hc1 : ¬ cond1 i) (hc2 : cond2 i) (a b : Vec F S8x256x3 .f32) (o s : Vec F S8x256 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare (k1_pay2 a b s) ∗ owns (c : Thread nD τ) arg5 fullShare (k1_pay2 a b s)) -∗ K ⟨⟩))
      ⊢ wp frame (wpE (defs₀ (F := F)) Variants.none c none) E (cc1__dist2_kernel i arg2 harg2 arg3 harg3 arg4 harg4 arg5 harg5) K := by
  simp only [cc1__dist2_kernel_eq_skeleton]; unfold cc1__dist2_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    rw [read_store]
    sl_unfold_words
    simp only [View.readAt_eq_ld, harg2.read_unread, harg3.read_unread, harg5.read_unread, View.ld_unit_zero (S := S8x256x3) hz3, View.ld_unit_zero (S := S8x256) hz, View.readCov_unit_zero (S := S8x256) _ hz]
  iexists _; isplitr
  swap; · iexact H5
  ipureintro
  sl_unfold_words
  rw [read_store]
  simp only [View.readAt_eq_ld, harg2.read_unread, harg3.read_unread, harg5.read_unread, View.ld_unit_zero (S := S8x256x3) hz3, View.ld_unit_zero (S := S8x256) hz, View.readCov_unit_zero (S := S8x256) _ hz]

end Cert.KernelIdeal.Near2

end
-- ==== Proof.Near2Point.lean ====
import proofs.«129224_j45337674776760_1_alg».proof.Proof.Gen.KernelIdeal.Launch
import proofs.«129224_j45337674776760_1_alg».proof.Proof.Gen.KernelIdeal.Skeleton
import proofs.«129224_j45337674776760_1_alg».proof.Proof.Gen.KernelIdeal.Points
import proofs.«129224_j45337674776760_1_alg».proof.Proof.Near2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 1, point by point: which of the three cases a point is in is read off t % 16; the invariant hands the
    body the scratch at what the point before left (at anything at the very first point) and takes it back at
    this point's running minimum. -/
namespace Cert.KernelIdeal.Near2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live0 t], after_0]
  rw [show (dat V c).leavesExact 1 t = owns (c : Thread nD τ) (st1_1 t) fullShare ((dat V c).after 1 t) from by
    unfold Dat.leavesExact; rw [live1 t], after_1]
  have hN : t.val < 256 := lt_of_lt_of_eq t.isLt (show cfg1.N = 256 from N_1)
  by_cases h0 : t.val % 16 = 0
  · have h1 : ¬ t.val % 16 = 15 := by omega
    rw [Dat.leavesExact_idle (dat V c) 2 t (idle2 t h1) (noflush2 t h1)]
    rw [acc_first V c t h0]
    by_cases hz : t.val = 0
    · rw [Phi_castSucc V c t, Phi_zero V c _ _ hz, PhiA_eq]
      iintro ⟨⟨⟨⟨%s, HS⟩, Hoth⟩, Hg⟩, Ho, ⟨%d0, H0⟩, ⟨%d1, H1⟩, ⟨%d2, H2⟩⟩
      iapply (body_first c (grid1.coords t) _ _ _ _ _ _ _ _ ((hcond1 t).mpr h0) (fun h => h1 ((hcond2 t).mp h)) (ablk V c t) (bblk V c t) ((dat V c).before 2 t d2) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi_castSucc V c t, Phi_pos V c _ _ hz]
      iintro ⟨⟨⟨HS, Hoth⟩, Hg⟩, Ho, ⟨%d0, H0⟩, ⟨%d1, H1⟩, ⟨%d2, H2⟩⟩
      iapply (body_first c (grid1.coords t) _ _ _ _ _ _ _ _ ((hcond1 t).mpr h0) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    rw [acc_next V c t h0]
    rw [Phi_castSucc V c t, Phi_pos V c _ _ hz]
    by_cases h1 : t.val % 16 = 15
    · rw [show (dat V c).leavesExact 2 t = owns (c : Thread nD τ) (st1_2 t) fullShare ((dat V c).after 2 t) from by
        unfold Dat.leavesExact; rw [live2 t h1], after_2, acc_next V c t h0]
      iintro ⟨⟨⟨HS, Hoth⟩, Hg⟩, Ho, ⟨%d0, H0⟩, ⟨%d1, H1⟩, ⟨%d2, H2⟩⟩
      iapply (body_last c (grid1.coords t) _ _ _ _ _ _ _ _ (fun h => h0 ((hcond1 t).mp h)) ((hcond2 t).mpr h1) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat V c) 2 t (idle2 t h1) (noflush2 t h1)]
      iintro ⟨⟨⟨HS, Hoth⟩, Hg⟩, Ho, ⟨%d0, H0⟩, ⟨%d1, H1⟩, ⟨%d2, H2⟩⟩
      iapply (body_mid c (grid1.coords t) _ _ _ _ _ _ _ _ (fun h => h0 ((hcond1 t).mp h)) (fun h => h1 ((hcond2 t).mp h)) (ablk V c t) (bblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the scratch back at contents no longer named. -/
theorem hout (c : Dev nD) : (dat V c).Φ (Fin.last cfg1.N) ⊢ Pipeline.ΦA spec1 c := by
  have hN : (Fin.last cfg1.N).val ≠ 0 := by rw [Fin.val_last]; have : cfg1.N = 256 := N_1; omega
  rw [show (dat V c).Φ (Fin.last cfg1.N) = Phi V c (Fin.last cfg1.N).val (Nat.le_of_lt_succ (Fin.last cfg1.N).isLt) from rfl, Phi_pos V c _ _ hN, PhiA_eq]
  iintro ⟨⟨HS, Hoth⟩, Hg⟩
  isplitl [HS Hoth]
  · isplitl [HS]; · iexists _; iexact HS
    iexact Hoth
  iexact Hg

end Cert.KernelIdeal.Near2

end
-- ==== Proof.Launch.lean ====
import proofs.«129224_j45337674776760_1_alg».proof.Proof.Gen.KernelIdeal.Launch
import proofs.«129224_j45337674776760_1_alg».proof.Proof.Gen.KernelIdeal.Skeleton
import proofs.«129224_j45337674776760_1_alg».proof.Proof.Gen.KernelIdeal.Points
import proofs.«129224_j45337674776760_1_alg».proof.Proof.Gen.KernelIdeal.Regions
import proofs.«129224_j45337674776760_1_alg».proof.Proof.Near1Point
import proofs.«129224_j45337674776760_1_alg».proof.Proof.Near2Point
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The whole program: region 0, region 1, then the host's two means and their sum. Between items every unscoped
    buffer is held at named contents: the launch memory, then region 0's result array at what its write-backs leave,
    then region 1's likewise, then the host operations' results. Every weakly fair execution ends with every unscoped
    buffer at the last of these; the arguments are never written, and the result is the host operations' term of the
    two regions' result arrays. -/
namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (Near1.dat (V0 m) c).arrAt w cfg0.N
theorem W1_arr (c : Dev nD) (w : Fin cfg0.W) :
    W1 m c (Proc.devRef .tc (Pipeline.arrRef spec0 w)) = (Near1.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Near1.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After region 1. -/
def W2 (c : Dev nD) : Valuation τ sig (Elt F) :=
  Pipeline.withArrays spec1 c (W1 m c) fun w => (Near2.dat (V1 m) c).arrAt w cfg1.N
theorem W2_arr (c : Dev nD) (w : Fin cfg1.W) :
    W2 m c (Proc.devRef .tc (Pipeline.arrRef spec1 w)) = (Near2.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Near2.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Near1.dat (V0 m) c
  | ⟨1, _⟩ => fun c => Near2.dat (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- unification of a library lemma stated over the pinned configuration with the printed one unfolds plain definitions
set_option backward.isDefEq.respectTransparency.types false in
/-- Region 0 as a segment: entered with every unscoped buffer at the contents before it, left with its result array at
    what its write-backs leave and every other buffer as entered; its arrays are split out of the unscoped buffers at entry
    and put back at exit; the generator register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Near1.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Near1.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions
set_option backward.isDefEq.respectTransparency.types false in
/-- Region 1 as a segment: entered with every unscoped buffer at the contents before it, left with its result array at
    what its write-backs leave and every other buffer as entered; its arrays are split out of the unscoped buffers at entry
    and put back at exit; the generator register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Near2.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Near2.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment from the contents after region 1. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (hseg m) ]
theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W3 m c) ∗ ∃ r, prngReg c r)

set_option backward.isDefEq.respectTransparency.types false in
/-- From any memory with zero counters every weakly fair execution terminates, nothing faulting, with every unscoped
    buffer at the contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Launch

end
-- ==== Proof.LaunchPost.lean ====
import proofs.«129224_j45337674776760_1_alg».proof.Proof.Gen.KernelIdeal.Launch
import proofs.«129224_j45337674776760_1_alg».proof.Proof.Gen.KernelIdeal.Skeleton
import proofs.«129224_j45337674776760_1_alg».proof.Proof.Gen.KernelIdeal.Points
import proofs.«129224_j45337674776760_1_alg».proof.Proof.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! What the run's last valuation holds where the claims look: the two arguments are as launched (no item writes them),
    and the result is the host's two means and their sum, of region 0's and region 1's result arrays. -/
namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 reads the first argument through window 0 and never writes it. -/
theorem V1_main_arg0 (c : Dev nD) : V1 m c main_arg0 = m ((c : Thread nD τ).loc main_arg0) :=
  (W1_arr m c 0).trans (((Near1.dat (V0 m) c).arrAt_in 0 rfl _).trans (Near1.A_eq (V0 m) c 0))
theorem V1_main_arg1 (c : Dev nD) : V1 m c main_arg1 = m ((c : Thread nD τ).loc main_arg1) :=
  (W1_arr m c 1).trans (((Near1.dat (V0 m) c).arrAt_in 1 rfl _).trans (Near1.A_eq (V0 m) c 1))
/-- So does region 1. -/
theorem V2_main_arg0 (c : Dev nD) : V2 m c main_arg0 = m ((c : Thread nD τ).loc main_arg0) :=
  (W2_arr m c 0).trans ((((Near2.dat (V1 m) c).arrAt_in 0 rfl _).trans (Near2.A_eq (V1 m) c 0)).trans (V1_main_arg0 m c))
theorem V2_main_arg1 (c : Dev nD) : V2 m c main_arg1 = m ((c : Thread nD τ).loc main_arg1) :=
  (W2_arr m c 1).trans ((((Near2.dat (V1 m) c).arrAt_in 1 rfl _).trans (Near2.A_eq (V1 m) c 1)).trans (V1_main_arg1 m c))

/-- The host operations write neither. -/
theorem W3_main_arg0 (c : Dev nD) : W3 m c (Proc.devRef .tc main_arg0) = m ((c : Thread nD τ).loc main_arg0) :=
  (StableHlo.after_of_writes_sub hostOps2 (W2 m c) hostOps2_writes (r := main_arg0) (by decide)).trans (V2_main_arg0 m c)
theorem W3_main_arg1 (c : Dev nD) : W3 m c (Proc.devRef .tc main_arg1) = m ((c : Thread nD τ).loc main_arg1) :=
  (StableHlo.after_of_writes_sub hostOps2 (W2 m c) hostOps2_writes (r := main_arg1) (by decide)).trans (V2_main_arg1 m c)

/-- Region 0's result array is its output window's array after every write-back; region 1 leaves it alone. -/
theorem V2_main_v0 (c : Dev nD) : V2 m c main_v0 = (Near1.dat (V0 m) c).arrAt 2 cfg0.N :=
  (W2_of_ne m c main_v0 (by decide)).trans (W1_arr m c 2)
theorem V2_main_v1 (c : Dev nD) : V2 m c main_v1 = (Near2.dat (V1 m) c).arrAt 2 cfg1.N :=
  W2_arr m c 2

/-- The two means and their sum, of two arrays of distances. -/
def means (d1 d2 : (⟨S8x4096, .f32⟩ : BufTy).Contents (Elt F)) : (⟨S_, .f32⟩ : BufTy).Contents (Elt F) :=
  addf (Host.divf (Host.reduceAdd d1 (constant S_ .f32 0x00000000#32) reducesTo_S8x4096_S_d0_1 h_S_) (constant S_ .f32 0x47000000#32))
    (Host.divf (Host.reduceAdd d2 (constant S_ .f32 0x00000000#32) reducesTo_S8x4096_S_d0_1 h_S_) (constant S_ .f32 0x47000000#32))

/-- The result buffer after the host operations. -/
theorem W3_main_v6 (c : Dev nD) :
    (W3 m c (Proc.devRef .tc main_v6) : (⟨S_, .f32⟩ : BufTy).Contents (Elt F)) = means (F := F) (V2 m c main_v0) (V2 m c main_v1) := by
  show StableHlo.after hostOps2 (W2 m c) (Proc.devRef .tc main_v6) = _
  unfold means
  after_results

/-- The frame: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

/-- The value: the result ends at the means of the two regions' result arrays, the arguments as launched. -/
theorem run_value : θ_run defs (onTc (τ := τ) (main (F := F))) ⟨m, fun _ => 0, ρ⟩ (fun r => ∀ c : Dev nD,
      r.2.mem ((c.tc : Thread nD τ).loc main_v6) = means (F := F) ((Near1.dat (V0 m) c).arrAt 2 cfg0.N) ((Near2.dat (V1 m) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans ((W3_main_v6 m c).trans (by rw [V2_main_v0, V2_main_v1])),
     (h c _ (mem_uc main_arg0 (by decide))).trans (W3_main_arg0 m c),
     (h c _ (mem_uc main_arg1 (by decide))).trans (W3_main_arg1 m c)⟩) (run_all m ρ)

end Cert.KernelIdeal.Launch

end
-- ==== Proof.Spec.lean ====
import Idealize.ShloMosaic.PureOps.Ideal
import Idealize.ShloMosaic.PureOps.Ideal.Laws
import Idealize.ShloMosaic.Lib.ValueIdx

/-! The specification both programs meet, over the extended reals.

    Two clouds of 4096 points of three coordinates, in 8 batches. For a pair of points x, y the programs form
    max ((|x|^2 + |y|^2) - 2 (x . y)) 0 with the sums over the three coordinates, in exactly this grouping, and then
    take minima over one of the two points. The three float literals (2, 0 and the infinite starting value of the
    minima) stay the words the programs print: nothing here evaluates them. A minimum is the fold of min from the
    starting value, so what is used of it is its universal property. -/

noncomputable section

namespace Cert.Chamfer

open Idealize.ShloMosaic Idealize.ShloMosaic.ValueIdx
open scoped BigOperators

/-- The literals as printed. -/
abbrev two : EReal := Ideal.ofBits .f32 0x40000000#32
abbrev nought : EReal := Ideal.ofBits .f32 0x00000000#32
abbrev start : EReal := Ideal.ofBits .f32 0x7F800000#32

/-- The clipped squared distance of two points given by their coordinates. -/
def pdist (x y : Fin 3 → EReal) : EReal :=
  max (((∑ d, x d * x d) + (∑ d, y d * y d)) - two * (∑ d, x d * y d)) nought

/-- The minimum of a finite family from the starting value. -/
def minFrom {n : ℕ} (f : Fin n → EReal) : EReal := Finset.univ.fold min start f

theorem le_minFrom_iff {n : ℕ} (f : Fin n → EReal) (z : EReal) : z ≤ minFrom f ↔ z ≤ start ∧ ∀ k, z ≤ f k := by
  unfold minFrom
  rw [Finset.le_fold_min]
  exact ⟨fun h => ⟨h.1, fun k => h.2 k (Finset.mem_univ k)⟩, fun h => ⟨h.1, fun k _ => h.2 k⟩⟩

theorem minFrom_le_start {n : ℕ} (f : Fin n → EReal) : minFrom f ≤ start :=
  ((le_minFrom_iff f _).mp le_rfl).1

/-- The two clouds. -/
abbrev Cloud : Shape := ⟨3, ![8, 4096, 3]⟩
abbrev Dists : Shape := ⟨2, ![8, 4096]⟩

/-- Point n of batch bi as its three coordinates. -/
def pt (A : Cloud.Idx → EReal) (bi : Fin 8) (n : Fin 4096) : Fin 3 → EReal := fun d => A (ix3 bi n d)

/-- For each point of the first cloud, the least clipped squared distance to a point of the second. -/
def near1 (A B : Cloud.Idx → EReal) : Dists.Idx → EReal :=
  fun i => minFrom fun m : Fin 4096 => pdist (pt A (i 0) (i 1)) (pt B (i 0) m)

/-- For each point of the second cloud, the least clipped squared distance to a point of the first. -/
def near2 (A B : Cloud.Idx → EReal) : Dists.Idx → EReal :=
  fun i => minFrom fun n : Fin 4096 => pdist (pt A (i 0) n) (pt B (i 0) (i 1))

/-- A minimum over 4096 points taken sixteen tiles of 256 at a time: what lies below the whole minimum is what
    lies below the starting value and below every member of every tile. -/
theorem le_minFrom_tiles (f : Fin 4096 → EReal) (z : EReal) :
    z ≤ minFrom f ↔ z ≤ start ∧ ∀ (k : Fin 16) (j : Fin 256), z ≤ f ⟨256 * k.val + j.val, by omega⟩ := by
  rw [le_minFrom_iff]
  refine and_congr_right fun _ => ⟨fun h k j => h _, fun h m => ?_⟩
  have := h ⟨m.val / 256, by omega⟩ ⟨m.val % 256, Nat.mod_lt _ (by norm_num)⟩
  have e : (⟨256 * (m.val / 256) + m.val % 256, by omega⟩ : Fin 4096) = m := Fin.ext (Nat.div_add_mod _ _)
  simpa only [e] using this

end Cert.Chamfer

end
-- ==== Proof.RefSide.lean ====
import proofs.«129224_j45337674776760_1_alg».proof.Proof.Gen.ReferenceIdeal.Read
import proofs.«129224_j45337674776760_1_alg».proof.Proof.Spec
import Idealize.ShloMosaic.PureOps.Ideal.Laws
import Idealize.ShloMosaic.Lib.ValueIdx
import Idealize.ShloMosaic.Lib.ValueLayout
import Idealize.ShloMosaic.Lib.Pipeline.Value

/-! The reference's two arrays of minima are the specification's, index by index. -/

noncomputable section

namespace Cert.ReferenceIdeal.Chamfer

open Idealize.ShloMosaic Idealize.ShloMosaic.ValueIdx Cert.ReferenceIdeal Cert.ReferenceIdeal.Gen Cert.ReferenceIdeal.Read Cert.Chamfer
open scoped BigOperators

/-- The zero word is the additive zero, so a sum started from it is the sum. -/
private theorem zero_word_add (s : EReal) : (Ideal.ofBits .f32 0x00000000#32 : EReal) + s = s := by
  rw [Ideal.ofBits_zero_f32, zero_add]

/-- The squared norm of the first cloud's point, broadcast to entry (bi, n, m), reads coordinate k of point (bi, n). -/
private theorem idx_sq0 (bi : Fin 8) (n m : Fin 4096) (k : Fin 3) :
    idx_main_v1 (idx_main_v5 (idx_main_v7 (ix3 bi n m))) k = ix3 bi n k :=
  funext fun a => by match a with | ⟨0, _⟩ => rfl | ⟨1, _⟩ => rfl | ⟨2, _⟩ => rfl

/-- The squared norm of the second cloud's point, broadcast to entry (bi, n, m), reads coordinate k of point (bi, m). -/
private theorem idx_sq1 (bi : Fin 8) (n m : Fin 4096) (k : Fin 3) :
    idx_main_v3 (idx_main_v6 (idx_main_v8 (ix3 bi n m))) k = ix3 bi m k :=
  funext fun a => by match a with | ⟨0, _⟩ => rfl | ⟨1, _⟩ => rfl | ⟨2, _⟩ => rfl

/-- The inner product at entry (bi, n, m) reads the first cloud at (bi, n, k) … -/
private theorem idx_dotl (bi : Fin 8) (n m : Fin 4096) (k : Fin 3) :
    lidx_main_v4 (ix3 bi n m) k = ix3 bi n k :=
  funext fun a => by match a with | ⟨0, _⟩ => rfl | ⟨1, _⟩ => rfl | ⟨2, _⟩ => rfl

/-- … and the second cloud at (bi, m, k). -/
private theorem idx_dotr (bi : Fin 8) (n m : Fin 4096) (k : Fin 3) :
    ridx_main_v4 (ix3 bi n m) k = ix3 bi m k :=
  funext fun a => by match a with | ⟨0, _⟩ => rfl | ⟨1, _⟩ => rfl | ⟨2, _⟩ => rfl

/-- Over result index (bi, n), the source index with m inserted on the last axis is (bi, n, m). -/
private theorem lift_last (h : S8x4096x4096.Reduces [2] S8x4096) (bi : Fin 8) (n m : Fin 4096) :
    h.lift (ix2 bi n) m = ix3 bi n m :=
  funext fun c => by match c with | ⟨0, _⟩ => rfl | ⟨1, _⟩ => rfl | ⟨2, _⟩ => rfl

/-- Over result index (bi, m), the source index with n inserted on the middle axis is (bi, n, m). -/
private theorem lift_mid (h : S8x4096x4096.Reduces [1] S8x4096) (bi : Fin 8) (m n : Fin 4096) :
    h.lift (ix2 bi m) n = ix3 bi n m :=
  funext fun c => by match c with | ⟨0, _⟩ => rfl | ⟨1, _⟩ => rfl | ⟨2, _⟩ => rfl

/-- The clipped squared distances the reference forms, entry (bi, n, m): the specification's pair distance. -/
theorem v14_apply (x0 x1 : (⟨S8x4096x3, .f32⟩ : BufTy).Contents (Elt Ideal)) (bi : Fin 8) (n m : Fin 4096) :
    val_main_v14 (F := Ideal) x0 x1 (ix3 bi n m) = pdist (pt x0 bi n) (pt x1 bi m) := by
  -- read every stage at its index: the two squared norms, the inner product, their combination, the clip
  rw [val_main_v14_apply, val_main_v12_apply, val_main_v13_apply, val_main_cst_2_apply, val_main_v9_apply,
    val_main_v11_apply, val_main_v10_apply, val_main_cst_1_apply, val_main_v4_apply, val_main_v7_apply,
    val_main_v8_apply, val_main_v5_apply, val_main_v6_apply, val_main_v1_apply, val_main_v3_apply,
    val_main_cst_apply, val_main_cst_0_apply]
  simp only [val_main_v0_apply, val_main_v2_apply, idx_sq0, idx_sq1, idx_dotl, idx_dotr]
  -- the operations are the extended reals'; each sum starts from zero; the words for 2 and for the clip stay words
  simp only [Ideal.ofBits_def, Ideal.addf_def, Ideal.subf_def, Ideal.mulf_def, Ideal.maximumf_def, zero_word_add]
  rfl

/-- The minima over the second cloud. -/
theorem v15_eq (x0 x1 : (⟨S8x4096x3, .f32⟩ : BufTy).Contents (Elt Ideal)) :
    val_main_v15 (F := Ideal) x0 x1 = near1 x0 x1 := by
  funext i
  obtain ⟨bi, n, rfl⟩ : ∃ bi n, i = ix2 bi n := ⟨i 0, i 1, eq_ix2 i⟩
  have hR : S8x4096x4096.Reduces [2] S8x4096 := by decide
  unfold val_main_v15
  -- a reduction over one axis by a commutative associative operation is the fold over that axis's coordinates
  refine (Host.reduce_eq_fold_single (FloatOps.minimumf (F := Ideal) (φ := .f32)) (val_main_v14 (F := Ideal) x0 x1)
    (val_main_cst_3 (F := Ideal)) reducesTo_S8x4096x4096_S8x4096_d2 hR h_S_ (ix2 bi n)).trans ?_
  -- the folded family is m ↦ the pair distance of point n of the first cloud and point m of the second
  have e : (val_main_v14 (F := Ideal) x0 x1 ∘ hR.lift (ix2 bi n))
      = fun m : Fin 4096 => pdist (pt x0 bi n) (pt x1 bi m) := by
    funext m
    show val_main_v14 (F := Ideal) x0 x1 (hR.lift (ix2 bi n) m) = _
    rw [lift_last hR bi n m]
    exact v14_apply x0 x1 bi n m
  rw [e]
  -- the operation is min and the initial word is the starting value
  rfl

/-- The minima over the first cloud. -/
theorem v16_eq (x0 x1 : (⟨S8x4096x3, .f32⟩ : BufTy).Contents (Elt Ideal)) :
    val_main_v16 (F := Ideal) x0 x1 = near2 x0 x1 := by
  funext i
  obtain ⟨bi, m, rfl⟩ : ∃ bi m, i = ix2 bi m := ⟨i 0, i 1, eq_ix2 i⟩
  have hR : S8x4096x4096.Reduces [1] S8x4096 := by decide
  unfold val_main_v16
  -- a reduction over one axis by a commutative associative operation is the fold over that axis's coordinates
  refine (Host.reduce_eq_fold_single (FloatOps.minimumf (F := Ideal) (φ := .f32)) (val_main_v14 (F := Ideal) x0 x1)
    (val_main_cst_4 (F := Ideal)) reducesTo_S8x4096x4096_S8x4096_d1 hR h_S_ (ix2 bi m)).trans ?_
  -- the folded family is n ↦ the pair distance of point n of the first cloud and point m of the second
  have e : (val_main_v14 (F := Ideal) x0 x1 ∘ hR.lift (ix2 bi m))
      = fun n : Fin 4096 => pdist (pt x0 bi n) (pt x1 bi m) := by
    funext n
    show val_main_v14 (F := Ideal) x0 x1 (hR.lift (ix2 bi m) n) = _
    rw [lift_mid hR bi m n]
    exact v14_apply x0 x1 bi n m
  rw [e]
  -- the operation is min and the initial word is the starting value
  rfl

end Cert.ReferenceIdeal.Chamfer

end
-- ==== Proof.TileMin.lean ====
import proofs.«129224_j45337674776760_1_alg».proof.Proof.Gen.KernelIdeal.Skeleton
import proofs.«129224_j45337674776760_1_alg».proof.Proof.Spec
import Idealize.ShloMosaic.PureOps.Ideal.Laws
import Idealize.ShloMosaic.Lib.ValueIdx
import Idealize.ShloMosaic.Lib.ValueLayout
import Idealize.ShloMosaic.Lib.Pipeline.Value

/-! One tile's contribution, read at an index over the extended reals: the stored block is the old block joined,
    entry by entry, with the minimum over the tile's other axis of the clipped squared distances. -/

noncomputable section

namespace Cert.KernelIdeal.TileMin

open Idealize.ShloMosaic Idealize.ShloMosaic.ValueIdx Cert.KernelIdeal Cert.KernelIdeal.Gen Cert.Chamfer
open scoped BigOperators

/-- Point r of batch bi of a block of 256 points, as its three coordinates. -/
def bpt (a : Vec Ideal S8x256x3 .f32) (bi : Fin 8) (r : Fin 256) : Fin 3 → EReal := fun d => a (ix3 bi r d)

/-! The two programs' operations read at an index, one lemma for each operation that is not entry by entry. -/

/-- The sum of squares of a point's coordinates, as the lane sum reads it. -/
private theorem sq_apply (x : Vec Ideal S8x256x3 .f32) (bi : Fin 8) (r : Fin 256) :
    multiReduction (F := Ideal) .add [2] S8x256 (mulf x x) 0x00000000#32 Facts₀.reduces_S8x256x3_S8x256 (.inl rfl) rfl (ix2 bi r)
      = ∑ d : Fin 3, x (ix3 bi r d) * x (ix3 bi r d) := by
  refine (Ideal.multiReduction_add_single _ _ Facts₀.reduces_S8x256x3_S8x256 _ _ _).trans ?_
  refine Finset.sum_congr rfl fun d _ => ?_
  have e : Facts₀.reduces_S8x256x3_S8x256.lift (ix2 bi r) d = ix3 bi r d :=
    funext fun a => Fin.ext (by match a with | ⟨0, _⟩ => rfl | ⟨1, _⟩ => rfl | ⟨2, _⟩ => rfl)
  rw [e]
  rfl

/-- A per-row quantity kept as a unit last axis and spread over the columns reads the row's value. -/
private theorem rowSpread_apply (v : S8x256.Idx → EReal) (bi : Fin 8) (r j : Fin 256) :
    broadcastTo S8x256x256 (shapeCast S8x256x1 v Facts₀.shapeCasts_S8x256_S8x256x1) Facts₀.broadcasts_S8x256x1_S8x256x256 (ix3 bi r j)
      = v (ix2 bi r) := by
  refine (broadcastTo_apply _ _ (ix3 bi r j) (ix3 bi r (0 : Fin 1)) fun a => ?_).trans ?_
  · match a with
    | ⟨0, _⟩ => rfl
    | ⟨1, _⟩ => rfl
    | ⟨2, _⟩ => rfl
  · refine shapeCast_apply _ _ (ix3 bi r (0 : Fin 1)) (ix2 bi r) ?_
    rw [Shape.rowMajor_val_two, Shape.rowMajor_val_three]
    show bi.val * 256 + r.val = (bi.val * 256 + r.val) * 1 + 0
    omega

/-- A per-column quantity kept as a unit middle axis and spread over the rows reads the column's value. -/
private theorem colSpread_apply (v : S8x256.Idx → EReal) (bi : Fin 8) (r j : Fin 256) :
    broadcastTo S8x256x256 (shapeCast S8x1x256 v Facts₀.shapeCasts_S8x256_S8x1x256) Facts₀.broadcasts_S8x1x256_S8x256x256 (ix3 bi r j)
      = v (ix2 bi j) := by
  refine (broadcastTo_apply _ _ (ix3 bi r j) (ix3 bi (0 : Fin 1) j) fun a => ?_).trans ?_
  · match a with
    | ⟨0, _⟩ => rfl
    | ⟨1, _⟩ => rfl
    | ⟨2, _⟩ => rfl
  · refine shapeCast_apply _ _ (ix3 bi (0 : Fin 1) j) (ix2 bi j) ?_
    rw [Shape.rowMajor_val_two, Shape.rowMajor_val_three]
    show bi.val * 256 + j.val = (bi.val * 1 + 0) * 256 + j.val
    omega

private theorem dot_lhs_0 (i : S8x256x256.Idx) (q : dot_S8x256x3_S8x256x3_S8x256x256_2_2_1_1_0_0.contr.Idx) :
    (dot_S8x256x3_S8x256x3_S8x256x256_2_2_1_1_0_0.lhsIdx i q 0).val = (i 0).val := by
  unfold DotDims.lhsIdx
  rw [dif_pos (show (0 : Fin S8x256x3.rank) ∈ dot_S8x256x3_S8x256x3_S8x256x256_2_2_1_1_0_0.lhsBatch by decide)]
  rfl
private theorem dot_lhs_1 (i : S8x256x256.Idx) (q : dot_S8x256x3_S8x256x3_S8x256x256_2_2_1_1_0_0.contr.Idx) :
    (dot_S8x256x3_S8x256x3_S8x256x256_2_2_1_1_0_0.lhsIdx i q 1).val = (i 1).val := by
  unfold DotDims.lhsIdx
  rw [dif_neg (show ¬(1 : Fin S8x256x3.rank) ∈ dot_S8x256x3_S8x256x3_S8x256x256_2_2_1_1_0_0.lhsBatch by decide), dif_pos (show (1 : Fin S8x256x3.rank) ∈ dot_S8x256x3_S8x256x3_S8x256x256_2_2_1_1_0_0.lhsNonContracting by decide)]
  rfl
private theorem dot_lhs_2 (i : S8x256x256.Idx) (q : dot_S8x256x3_S8x256x3_S8x256x256_2_2_1_1_0_0.contr.Idx) :
    (dot_S8x256x3_S8x256x3_S8x256x256_2_2_1_1_0_0.lhsIdx i q 2).val = (q ⟨0, by decide⟩).val :=
  dot_S8x256x3_S8x256x3_S8x256x256_2_2_1_1_0_0.lhsIdx_val_of_single rfl i q
private theorem dot_rhs_0 (i : S8x256x256.Idx) (q : dot_S8x256x3_S8x256x3_S8x256x256_2_2_1_1_0_0.contr.Idx) :
    (dot_S8x256x3_S8x256x3_S8x256x256_2_2_1_1_0_0.rhsIdx i q 0).val = (i 0).val := by
  unfold DotDims.rhsIdx
  rw [dif_pos (show (0 : Fin S8x256x3.rank) ∈ dot_S8x256x3_S8x256x3_S8x256x256_2_2_1_1_0_0.rhsBatch by decide)]
  rfl
private theorem dot_rhs_1 (i : S8x256x256.Idx) (q : dot_S8x256x3_S8x256x3_S8x256x256_2_2_1_1_0_0.contr.Idx) :
    (dot_S8x256x3_S8x256x3_S8x256x256_2_2_1_1_0_0.rhsIdx i q 1).val = (i 2).val := by
  unfold DotDims.rhsIdx
  rw [dif_neg (show ¬(1 : Fin S8x256x3.rank) ∈ dot_S8x256x3_S8x256x3_S8x256x256_2_2_1_1_0_0.rhsBatch by decide), dif_pos (show (1 : Fin S8x256x3.rank) ∈ dot_S8x256x3_S8x256x3_S8x256x256_2_2_1_1_0_0.rhsNonContracting by decide)]
  rfl
private theorem dot_rhs_2 (i : S8x256x256.Idx) (q : dot_S8x256x3_S8x256x3_S8x256x256_2_2_1_1_0_0.contr.Idx) :
    (dot_S8x256x3_S8x256x3_S8x256x256_2_2_1_1_0_0.rhsIdx i q 2).val = (q ⟨0, by decide⟩).val :=
  dot_S8x256x3_S8x256x3_S8x256x256_2_2_1_1_0_0.rhsIdx_val_of_single rfl i q

/-- The product block: entry (bi, r, j) is the inner product of point r of the first block and point j of the second. -/
private theorem dot_apply (a b : Vec Ideal S8x256x3 .f32) (bi : Fin 8) (r j : Fin 256) :
    matmul (F := Ideal) dot_S8x256x3_S8x256x3_S8x256x256_2_2_1_1_0_0 none (truncf .bf16 a Facts₀.bitsLt_bf16_f32) (truncf .bf16 b Facts₀.bitsLt_bf16_f32)
        (constant S8x256x256 .f32 0x00000000#32) (ix3 bi r j)
      = ∑ d : Fin 3, a (ix3 bi r d) * b (ix3 bi j d) := by
  refine (Ideal.matmul_constant_zero_apply dot_S8x256x3_S8x256x3_S8x256x256_2_2_1_1_0_0 none _ _ _).trans ?_
  rw [← Equiv.sum_comp (contrEquiv1 dot_S8x256x3_S8x256x3_S8x256x256_2_2_1_1_0_0 3 rfl rfl).symm]
  refine Finset.sum_congr rfl fun k _ => ?_
  have hk := contrEquiv1_symm_val dot_S8x256x3_S8x256x3_S8x256x256_2_2_1_1_0_0 3 rfl rfl k
  have el : dot_S8x256x3_S8x256x3_S8x256x256_2_2_1_1_0_0.lhsIdx (ix3 bi r j) ((contrEquiv1 dot_S8x256x3_S8x256x3_S8x256x256_2_2_1_1_0_0 3 rfl rfl).symm k) = ix3 bi r k := funext fun c => Fin.ext (by
    match c with
    | ⟨0, _⟩ => exact dot_lhs_0 _ _
    | ⟨1, _⟩ => exact dot_lhs_1 _ _
    | ⟨2, _⟩ => exact (dot_lhs_2 _ _).trans hk)
  have er : dot_S8x256x3_S8x256x3_S8x256x256_2_2_1_1_0_0.rhsIdx (ix3 bi r j) ((contrEquiv1 dot_S8x256x3_S8x256x3_S8x256x256_2_2_1_1_0_0 3 rfl rfl).symm k) = ix3 bi j k := funext fun c => Fin.ext (by
    match c with
    | ⟨0, _⟩ => exact dot_rhs_0 _ _
    | ⟨1, _⟩ => exact dot_rhs_1 _ _
    | ⟨2, _⟩ => exact (dot_rhs_2 _ _).trans hk)
  rw [el, er]
  rfl

/-- A minimum reduction over one axis is the fold of min from the starting word's value over that axis's coordinates. -/
private theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the last axis of a block, at (bi, r): the minimum from the starting value over the columns j. -/
private theorem minLast_apply (src : FVec Ideal S8x256x256 .f32) (bi : Fin 8) (r : Fin 256) :
    multiReduction (F := Ideal) .minimumf [2] S8x256 src 0x7F800000#32 Facts₀.reduces_S8x256x256_S8x256 (.inl rfl) rfl (ix2 bi r)
      = minFrom fun j : Fin 256 => src (ix3 bi r j) := by
  refine (minimumf_single src _ Facts₀.reduces_S8x256x256_S8x256 _ _ _).trans ?_
  have e : (src ∘ Facts₀.reduces_S8x256x256_S8x256.lift (ix2 bi r)) = fun j : Fin 256 => src (ix3 bi r j) :=
    funext fun j => congrArg src (funext fun c => Fin.ext (by
      match c with | ⟨0, _⟩ => rfl | ⟨1, _⟩ => rfl | ⟨2, _⟩ => rfl))
  rw [e]
  rfl

/-- The minimum over the middle axis of a block, at (bi, j): the minimum from the starting value over the rows r. -/
private theorem minMid_apply (src : FVec Ideal S8x256x256 .f32) (bi : Fin 8) (j : Fin 256) :
    multiReduction (F := Ideal) .minimumf [1] S8x256 src 0x7F800000#32 Facts₀.reduces_S8x256x256_S8x256_2 (.inl rfl) rfl (ix2 bi j)
      = minFrom fun r : Fin 256 => src (ix3 bi r j) := by
  refine (minimumf_single src _ Facts₀.reduces_S8x256x256_S8x256_2 _ _ _).trans ?_
  have e : (src ∘ Facts₀.reduces_S8x256x256_S8x256_2.lift (ix2 bi j)) = fun r : Fin 256 => src (ix3 bi r j) :=
    funext fun r => congrArg src (funext fun c => Fin.ext (by
      match c with | ⟨0, _⟩ => rfl | ⟨1, _⟩ => rfl | ⟨2, _⟩ => rfl))
  rw [e]
  rfl

/-- The block of clipped squared distances, as both programs form it: entry (bi, r, j) is for point r of the first
    block and point j of the second. -/
private def dblk (a b : Vec Ideal S8x256x3 .f32) : FVec Ideal S8x256x256 .f32 :=
  maximumf
    (subf
      (addf
        (broadcastTo S8x256x256
          (shapeCast S8x256x1
            (multiReduction (F := Ideal) .add [2] S8x256 (mulf a a) 0x00000000#32 Facts₀.reduces_S8x256x3_S8x256 (.inl rfl) rfl)
            Facts₀.shapeCasts_S8x256_S8x256x1)
          Facts₀.broadcasts_S8x256x1_S8x256x256)
        (broadcastTo S8x256x256
          (shapeCast S8x1x256
            (multiReduction (F := Ideal) .add [2] S8x256 (mulf b b) 0x00000000#32 Facts₀.reduces_S8x256x3_S8x256 (.inl rfl) rfl)
            Facts₀.shapeCasts_S8x256_S8x1x256)
          Facts₀.broadcasts_S8x1x256_S8x256x256))
      (mulf (broadcast S8x256x256 (Scalar.ofBits (F := Ideal) .f32 0x40000000#32))
        (matmul (F := Ideal) dot_S8x256x3_S8x256x3_S8x256x256_2_2_1_1_0_0 none (truncf .bf16 a Facts₀.bitsLt_bf16_f32) (truncf .bf16 b Facts₀.bitsLt_bf16_f32)
          (constant S8x256x256 .f32 0x00000000#32))))
    (broadcast S8x256x256 (Scalar.ofBits (F := Ideal) .f32 0x00000000#32))

/-- Entry (bi, r, j) of that block is the clipped squared distance of the two points. -/
private theorem dblk_apply (a b : Vec Ideal S8x256x3 .f32) (bi : Fin 8) (r j : Fin 256) :
    dblk a b (ix3 bi r j) = pdist (bpt a bi r) (bpt b bi j) := by
  unfold dblk pdist bpt
  rw [maximumf_apply, subf_apply, addf_apply, mulf_apply, rowSpread_apply, colSpread_apply, sq_apply, sq_apply, dot_apply]
  rfl

/-- The block a row of tiles starts from is the starting value everywhere (both kernels). -/
theorem pay1_row (i : S8x256.Idx) : k0_pay1 (F := Ideal) i = start := by
  unfold k0_pay1
  refine (congrFun (shapeCast_self _ _) i).trans ?_
  rfl
theorem pay1_col (i : S8x256.Idx) : k1_pay1 (F := Ideal) i = start := by
  unfold k1_pay1
  refine (congrFun (shapeCast_self _ _) i).trans ?_
  rfl

/-- Kernel 0's stored block: entry (bi, r) is the old entry joined with the minimum over the tile's 256 points j
    of the second cloud of the clipped squared distance from point r of the first. -/
theorem pay2_row (a b : Vec Ideal S8x256x3 .f32) (s : Vec Ideal S8x256 .f32) (bi : Fin 8) (r : Fin 256) :
    k0_pay2 (F := Ideal) a b s (ix2 bi r)
      = min (s (ix2 bi r)) (minFrom fun j : Fin 256 => pdist (bpt a bi r) (bpt b bi j)) := by
  have e : k0_pay2 (F := Ideal) a b s
      = shapeCast S8x256
          (minimumf s (multiReduction (F := Ideal) .minimumf [2] S8x256 (dblk a b) 0x7F800000#32
            Facts₀.reduces_S8x256x256_S8x256 (.inl rfl) rfl))
          Facts₀.shapeCasts_S8x256_S8x256 := rfl
  rw [e, shapeCast_self, minimumf_apply, minLast_apply]
  exact congrArg (min (s (ix2 bi r))) (congrArg (fun f : Fin 256 → EReal => minFrom f) (funext fun j => dblk_apply a b bi r j))

/-- Kernel 1's stored block: entry (bi, j) is the old entry joined with the minimum over the tile's 256 points r
    of the first cloud of the clipped squared distance to point j of the second. -/
theorem pay2_col (a b : Vec Ideal S8x256x3 .f32) (s : Vec Ideal S8x256 .f32) (bi : Fin 8) (j : Fin 256) :
    k1_pay2 (F := Ideal) a b s (ix2 bi j)
      = min (s (ix2 bi j)) (minFrom fun r : Fin 256 => pdist (bpt a bi r) (bpt b bi j)) := by
  have e : k1_pay2 (F := Ideal) a b s
      = shapeCast S8x256
          (minimumf s (multiReduction (F := Ideal) .minimumf [1] S8x256 (dblk a b) 0x7F800000#32
            Facts₀.reduces_S8x256x256_S8x256_2 (.inl rfl) rfl))
          Facts₀.shapeCasts_S8x256_S8x256 := rfl
  rw [e, shapeCast_self, minimumf_apply, minMid_apply]
  exact congrArg (min (s (ix2 bi j))) (congrArg (fun f : Fin 256 → EReal => minFrom f) (funext fun r => dblk_apply a b bi r j))

end Cert.KernelIdeal.TileMin

end
-- ==== Proof.Near1Value.lean ====
import proofs.«129224_j45337674776760_1_alg».proof.Proof.Near1
import proofs.«129224_j45337674776760_1_alg».proof.Proof.TileMin
import proofs.«129224_j45337674776760_1_alg».proof.Proof.Spec
import Idealize.ShloMosaic.Lib.Pipeline.Value
import Idealize.ShloMosaic.Lib.ValueIdx
import Idealize.ShloMosaic.PureOps.Ideal.Laws

/-! Region 0's result array over the extended reals: entry (bi, n) is the minimum over all 4096 points m of the second cloud of the clipped squared distance from point n of the first. The scratch after point t = 16 p + q of the grid holds, at (bi, r), the minimum over the second cloud's points 0 .. 256 (q + 1) - 1 of the distance from point 256 p + r; the block written back at q = 15 is therefore the whole minimum, and the sixteen blocks p = 0 .. 15 tile the array. -/

set_option maxRecDepth 16384

noncomputable section

namespace Cert.KernelIdeal.Near1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.TileMin Cert.Chamfer
open scoped BigOperators

variable (V : (c : Dev nD) → (b : Ref sig .tc) → Buf (Elt Ideal) ((c : Thread nD τ).loc b))

/-! ## Where a block sits in its array

    Point t of the grid has row tile t / 16 and column tile t % 16. The first cloud's block there is its points
    256 (t / 16) .. 256 (t / 16) + 255, the second cloud's block its points 256 (t % 16) .. 256 (t % 16) + 255, and the
    output's block the entries 256 (t / 16) .. 256 (t / 16) + 255 of every batch; on the batch axis and on the coordinate
    axis the block is the whole extent. -/

/-- The first cloud's block index at point t: batch 0, row tile t / 16, coordinate 0. -/
private theorem idxA : ∀ t : Fin cfg0.N, win0_0.index t (0 : Fin 3) = 0 ∧ win0_0.index t (1 : Fin 3) = t.val / 16 ∧ win0_0.index t (2 : Fin 3) = 0 :=
  (by decide +kernel : ∀ t : Fin grid0.N, _)

/-- The second cloud's block index at point t: batch 0, column tile t % 16, coordinate 0. -/
private theorem idxB : ∀ t : Fin cfg0.N, win0_1.index t (0 : Fin 3) = 0 ∧ win0_1.index t (1 : Fin 3) = t.val % 16 ∧ win0_1.index t (2 : Fin 3) = 0 :=
  (by decide +kernel : ∀ t : Fin grid0.N, _)

/-- The output's block index at point t: batch 0, row tile t / 16. -/
private theorem idxO : ∀ t : Fin cfg0.N, win0_2.index t (0 : Fin 2) = 0 ∧ win0_2.index t (1 : Fin 2) = t.val / 16 :=
  (by decide +kernel : ∀ t : Fin grid0.N, _)

/-- Entry (bi, r, d) of the first cloud's block at point t is entry (bi, 256 (t / 16) + r, d) of the first cloud. -/
private theorem ablk_apply (c : Dev nD) (t : Fin cfg0.N) (bi : Fin 8) (r : Fin 256) (d : Fin 3)
    (k : Fin 4096) (hk : k.val = 256 * (t.val / 16) + r.val) :
    ablk V c t (ix3 bi r d) = (V c main_arg0 : S8x4096x3.Idx → EReal) (ix3 bi k d) := by
  obtain ⟨e0, e1, e2⟩ := idxA t
  unfold ablk iblk
  rw [View.read_apply]
  show V c main_arg0 (((cfg0.win 0).blk t).view.emb (ix3 bi r d)) = V c main_arg0 (ix3 bi k d)
  congr 1
  funext a
  apply Fin.ext
  match a with
  | ⟨0, _⟩ => show win0_0.index t (0 : Fin 3) * 8 + 1 * bi.val = bi.val; omega
  | ⟨1, _⟩ => show win0_0.index t (1 : Fin 3) * 256 + 1 * r.val = k.val; omega
  | ⟨2, _⟩ => show win0_0.index t (2 : Fin 3) * 3 + 1 * d.val = d.val; omega

/-- Entry (bi, j, d) of the second cloud's block at point t is entry (bi, 256 (t % 16) + j, d) of the second cloud. -/
private theorem bblk_apply (c : Dev nD) (t : Fin cfg0.N) (bi : Fin 8) (j : Fin 256) (d : Fin 3)
    (k : Fin 4096) (hk : k.val = 256 * (t.val % 16) + j.val) :
    bblk V c t (ix3 bi j d) = (V c main_arg1 : S8x4096x3.Idx → EReal) (ix3 bi k d) := by
  obtain ⟨e0, e1, e2⟩ := idxB t
  unfold bblk iblk
  rw [View.read_apply]
  show V c main_arg1 (((cfg0.win 1).blk t).view.emb (ix3 bi j d)) = V c main_arg1 (ix3 bi k d)
  congr 1
  funext a
  apply Fin.ext
  match a with
  | ⟨0, _⟩ => show win0_1.index t (0 : Fin 3) * 8 + 1 * bi.val = bi.val; omega
  | ⟨1, _⟩ => show win0_1.index t (1 : Fin 3) * 256 + 1 * j.val = k.val; omega
  | ⟨2, _⟩ => show win0_1.index t (2 : Fin 3) * 3 + 1 * d.val = d.val; omega

/-- Point r of the first cloud's block at point t is point 256 (t / 16) + r of the first cloud. -/
private theorem bpt_ablk (c : Dev nD) (t : Fin cfg0.N) (bi : Fin 8) (r : Fin 256)
    (k : Fin 4096) (hk : k.val = 256 * (t.val / 16) + r.val) :
    bpt (ablk V c t) bi r = pt (V c main_arg0) bi k :=
  funext fun d => ablk_apply V c t bi r d k hk

/-- Point j of the second cloud's block at point t is point 256 (t % 16) + j of the second cloud. -/
private theorem bpt_bblk (c : Dev nD) (t : Fin cfg0.N) (bi : Fin 8) (j : Fin 256)
    (k : Fin 4096) (hk : k.val = 256 * (t.val % 16) + j.val) :
    bpt (bblk V c t) bi j = pt (V c main_arg1) bi k :=
  funext fun d => bblk_apply V c t bi j d k hk

/-! ## The running minimum

    A minimum is carried by what lies below it. After point t = 16 p + q the scratch entry (bi, r) has below it exactly
    what is below the starting value and below the distance from point k = 256 p + r of the first cloud to every point
    m < 256 (q + 1) of the second. -/

/-- One tile's part: being below the distances to the 256 points of the second cloud's block at point t is being below
    the distances to the second cloud's points 256 (t % 16) ≤ m < 256 (t % 16 + 1). -/
private theorem tile_le_iff (c : Dev nD) (t : Fin cfg0.N) (bi : Fin 8) (r : Fin 256) (k : Fin 4096)
    (hk : k.val = 256 * (t.val / 16) + r.val) (z : EReal) :
    (∀ j : Fin 256, z ≤ pdist (bpt (ablk V c t) bi r) (bpt (bblk V c t) bi j))
      ↔ ∀ m : Fin 4096, 256 * (t.val % 16) ≤ m.val → m.val < 256 * (t.val % 16 + 1) →
          z ≤ pdist (pt (V c main_arg0) bi k) (pt (V c main_arg1) bi m) := by
  rw [bpt_ablk V c t bi r k hk]
  constructor
  · intro h m h1 h2
    have hj : m.val - 256 * (t.val % 16) < 256 := by omega
    have := h ⟨m.val - 256 * (t.val % 16), hj⟩
    rwa [bpt_bblk V c t bi ⟨m.val - 256 * (t.val % 16), hj⟩ m (by show m.val = 256 * (t.val % 16) + (m.val - 256 * (t.val % 16)); omega)] at this
  · intro h j
    have hj : j.val < 256 := j.isLt
    have hm : 256 * (t.val % 16) + j.val < 4096 := by omega
    rw [bpt_bblk V c t bi j ⟨256 * (t.val % 16) + j.val, hm⟩ rfl]
    exact h ⟨256 * (t.val % 16) + j.val, hm⟩ (by show 256 * (t.val % 16) ≤ 256 * (t.val % 16) + j.val; omega)
      (by show 256 * (t.val % 16) + j.val < 256 * (t.val % 16 + 1); omega)

/-- Where a row of tiles begins (t % 16 = 0) the scratch is the first tile's minima joined to the starting value. -/
private theorem first_le_iff (c : Dev nD) (t : Fin cfg0.N) (h0 : t.val % 16 = 0) (bi : Fin 8) (r : Fin 256) (k : Fin 4096)
    (hk : k.val = 256 * (t.val / 16) + r.val) (z : EReal) :
    z ≤ acc V c t.val t.isLt (ix2 bi r) ↔ z ≤ start ∧ ∀ m : Fin 4096, m.val < 256 * (t.val % 16 + 1) →
          z ≤ pdist (pt (V c main_arg0) bi k) (pt (V c main_arg1) bi m) := by
  rw [acc_first V c t h0, pay2_row, le_min_iff, pay1_row, le_minFrom_iff, tile_le_iff V c t bi r k hk z]
  constructor
  · rintro ⟨hs, -, h⟩; exact ⟨hs, fun m hm => h m (by omega) hm⟩
  · rintro ⟨hs, h⟩; exact ⟨hs, hs, fun m _ hm => h m hm⟩

/-- THE INVARIANT, by induction on the point: a point that does not begin a row of tiles joins its tile's minima to
    what the point before left, and the points m < 256 (n % 16 + 1) are those below 256 (n % 16) together with the
    tile's own. -/
private theorem acc_le_iff (c : Dev nD) (n : ℕ) : ∀ (h : n < cfg0.N) (bi : Fin 8) (r : Fin 256) (k : Fin 4096)
    (hk : k.val = 256 * (n / 16) + r.val) (z : EReal),
    z ≤ acc V c n h (ix2 bi r) ↔ z ≤ start ∧ ∀ m : Fin 4096, m.val < 256 * (n % 16 + 1) →
          z ≤ pdist (pt (V c main_arg0) bi k) (pt (V c main_arg1) bi m) := by
  induction n with
  | zero => intro h bi r k hk z; exact first_le_iff V c ⟨0, h⟩ rfl bi r k hk z
  | succ n ih =>
    intro h bi r k hk z
    by_cases h0 : (n + 1) % 16 = 0
    · exact first_le_iff V c ⟨n + 1, h⟩ h0 bi r k hk z
    · have ih' := ih (Nat.lt_of_succ_lt h) bi r k (by omega) z
      have ht := tile_le_iff V c ⟨n + 1, h⟩ bi r k hk z
      rw [show acc V c (n + 1) h = _ from acc_next V c ⟨n + 1, h⟩ h0, pay2_row, le_min_iff, le_minFrom_iff, ht]
      constructor
      · rintro ⟨ha, -, hq⟩
        obtain ⟨hs, hp⟩ := ih'.mp ha
        have hq' : ∀ m : Fin 4096, 256 * ((n + 1) % 16) ≤ m.val → m.val < 256 * ((n + 1) % 16 + 1) →
          z ≤ pdist (pt (V c main_arg0) bi k) (pt (V c main_arg1) bi m) := hq
        refine ⟨hs, fun m hm => ?_⟩
        by_cases hlt : m.val < 256 * (n % 16 + 1)
        · exact hp m hlt
        · exact hq' m (by omega) hm
      · rintro ⟨hs, hp⟩
        exact ⟨ih'.mpr ⟨hs, fun m hm => hp m (by omega)⟩, hs, fun m _ hm => hp m hm⟩

/-- At the last column tile (t % 16 = 15) every point of the second cloud has been met: the scratch entry (bi, r) is the
    specification's minimum for point 256 (t / 16) + r of the first cloud. -/
private theorem acc_last (c : Dev nD) (t : Fin cfg0.N) (h15 : t.val % 16 = 15) (bi : Fin 8) (r : Fin 256) (k : Fin 4096)
    (hk : k.val = 256 * (t.val / 16) + r.val) :
    acc V c t.val t.isLt (ix2 bi r) = near1 (V c main_arg0) (V c main_arg1) (ix2 bi k) := by
  refine eq_of_forall_le_iff fun z => ?_
  rw [acc_le_iff V c t.val t.isLt bi r k hk z]
  show _ ↔ z ≤ minFrom fun m : Fin 4096 => pdist (pt (V c main_arg0) bi k) (pt (V c main_arg1) bi m)
  rw [le_minFrom_iff]
  exact and_congr_right fun _ => forall_congr' fun m => ⟨fun h => h (by have := m.isLt; omega), fun h _ => h⟩

/-! ## The blocks written back, and the array they tile -/

/-- What a point t with t % 16 = 15 writes back is block t / 16 of the specification's array. -/
private theorem flushed_eq (c : Dev nD) (t : Fin cfg0.N) (hf : (cfg0.win 2).flush t = true) :
    (dat V c).flushed 2 t = ((cfg0.win 2).blk t).view.read (Elt Ideal) (near1 (V c main_arg0) (V c main_arg1)) := by
  have h15 : t.val % 16 = 15 := (flush0_2 t).mp hf
  obtain ⟨e0, e1⟩ := idxO t
  have hN : t.val < 256 := lt_of_lt_of_eq t.isLt N_0
  have key : ∀ y : S8x256.Idx, acc V c t.val t.isLt y
      = near1 (V c main_arg0) (V c main_arg1) (((cfg0.win 2).blk t).view.emb y) := by
    intro y
    obtain ⟨a, b, rfl⟩ : ∃ a b, y = ix2 a b := ⟨y 0, y 1, eq_ix2 y⟩
    have hb : b.val < 256 := b.isLt
    rw [acc_last V c t h15 a b ⟨256 * (t.val / 16) + b.val, by omega⟩ rfl]
    congr 1
    funext ax
    apply Fin.ext
    match ax with
    | ⟨0, _⟩ => show a.val = win0_2.index t (0 : Fin 2) * 8 + 1 * a.val; omega
    | ⟨1, _⟩ => show 256 * (t.val / 16) + b.val = win0_2.index t (1 : Fin 2) * 256 + 1 * b.val; omega
  show (cfg0.win 2).cut (grid0.coords t) ((dat V c).after 2 t) = _
  rw [after_2]
  funext y
  rw [View.read_apply]
  exact key y

/-- THE RESULT ARRAY: after the region every entry of its output array is the specification's minimum. -/
theorem result_eq (c : Dev nD) :
    ((dat (F := Ideal) V c).arrAt 2 cfg0.N : S8x4096.Idx → EReal) = near1 (V c main_arg0) (V c main_arg1) := by
  -- entry (bi, n) lies in the block written back at point 16 (n / 256) + 15
  refine (dat V c).arrAt_eq_of_cover 2 (near1 (V c main_arg0) (V c main_arg1)) (flushed_eq V c) fun i => ?_
  have h0 : (i 0).val < 8 := (i 0).isLt
  have h1 : (i 1).val < 4096 := (i 1).isLt
  have hlt : 16 * ((i 1).val / 256) + 15 < cfg0.N := lt_of_lt_of_eq (b := 256) (by omega) N_0.symm
  obtain ⟨e0, e1⟩ := idxO ⟨16 * ((i 1).val / 256) + 15, hlt⟩
  have e1' : win0_2.index ⟨16 * ((i 1).val / 256) + 15, hlt⟩ (1 : Fin 2) = (16 * ((i 1).val / 256) + 15) / 16 := e1
  refine ⟨⟨16 * ((i 1).val / 256) + 15, hlt⟩, (flush0_2 _).mpr (by show (16 * ((i 1).val / 256) + 15) % 16 = 15; omega), ?_⟩
  show i ∈ ((View.whole main_v0).slice (win0_2.rect ⟨16 * ((i 1).val / 256) + 15, hlt⟩)).set
  rw [View.set_slice_whole, Rect.mem_set_unit]
  intro a
  match a with
  | ⟨0, _⟩ =>
    show win0_2.index ⟨16 * ((i 1).val / 256) + 15, hlt⟩ (0 : Fin 2) * 8 ≤ (i 0).val
      ∧ (i 0).val < win0_2.index ⟨16 * ((i 1).val / 256) + 15, hlt⟩ (0 : Fin 2) * 8 + 8
    omega
  | ⟨1, _⟩ =>
    show win0_2.index ⟨16 * ((i 1).val / 256) + 15, hlt⟩ (1 : Fin 2) * 256 ≤ (i 1).val
      ∧ (i 1).val < win0_2.index ⟨16 * ((i 1).val / 256) + 15, hlt⟩ (1 : Fin 2) * 256 + 256
    omega

end Cert.KernelIdeal.Near1

end
-- ==== Proof.Near2Value.lean ====
import proofs.«129224_j45337674776760_1_alg».proof.Proof.Near2
import proofs.«129224_j45337674776760_1_alg».proof.Proof.TileMin
import proofs.«129224_j45337674776760_1_alg».proof.Proof.Spec
import Idealize.ShloMosaic.Lib.Pipeline.Value
import Idealize.ShloMosaic.Lib.ValueIdx
import Idealize.ShloMosaic.PureOps.Ideal.Laws

/-! Region 1's result array over the extended reals: entry (bi, m) is the minimum over all 4096 points n of the first cloud of the clipped squared distance to point m of the second. The scratch after point t = 16 p + q of the grid holds, at (bi, j), the minimum over the first cloud's points 0 .. 256 (q + 1) - 1 of the distance to point 256 p + j; the block written back at q = 15 is therefore the whole minimum, and the sixteen blocks p = 0 .. 15 tile the array. -/

set_option maxRecDepth 16384

noncomputable section

namespace Cert.KernelIdeal.Near2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.TileMin Cert.Chamfer
open scoped BigOperators

variable (V : (c : Dev nD) → (b : Ref sig .tc) → Buf (Elt Ideal) ((c : Thread nD τ).loc b))

/-! ## The blocks the windows stage, as points of the two clouds -/

/-- The block indices over the grid: at point t = 16 p + q the first cloud's window is at tile q, the second cloud's
    and the output's at tile p; every other axis is at block 0. -/
private theorem idxA : ∀ t : Fin cfg1.N, win1_0.index t (0 : Fin 3) = 0 ∧ win1_0.index t (1 : Fin 3) = t.val % 16 ∧ win1_0.index t (2 : Fin 3) = 0 :=
  (by decide +kernel : ∀ t : Fin grid1.N, win1_0.index t (0 : Fin 3) = 0 ∧ win1_0.index t (1 : Fin 3) = t.val % 16 ∧ win1_0.index t (2 : Fin 3) = 0)
private theorem idxB : ∀ t : Fin cfg1.N, win1_1.index t (0 : Fin 3) = 0 ∧ win1_1.index t (1 : Fin 3) = t.val / 16 ∧ win1_1.index t (2 : Fin 3) = 0 :=
  (by decide +kernel : ∀ t : Fin grid1.N, win1_1.index t (0 : Fin 3) = 0 ∧ win1_1.index t (1 : Fin 3) = t.val / 16 ∧ win1_1.index t (2 : Fin 3) = 0)
private theorem idxO : ∀ t : Fin cfg1.N, win1_2.index t (0 : Fin 2) = 0 ∧ win1_2.index t (1 : Fin 2) = t.val / 16 :=
  (by decide +kernel : ∀ t : Fin grid1.N, win1_2.index t (0 : Fin 2) = 0 ∧ win1_2.index t (1 : Fin 2) = t.val / 16)

/-- A grid point is below 256. -/
private theorem lt256 (t : Fin cfg1.N) : t.val < 256 := Nat.lt_of_lt_of_eq t.isLt N_1

/-- The first cloud's block at point t: coordinate d of its point r is coordinate d of point 256 (t % 16) + r. -/
private theorem ablk_apply (c : Dev nD) (t : Fin cfg1.N) (bi : Fin 8) (r : Fin 256) (d : Fin 3) :
    ablk V c t (ix3 bi r d)
      = (V c main_arg0 : S8x4096x3.Idx → EReal) (ix3 bi ⟨256 * (t.val % 16) + r.val, by have := r.isLt; omega⟩ d) := by
  obtain ⟨e0, e1, e2⟩ := idxA t
  show ((cfg1.win 0).blk t).view.read (Elt Ideal) (V c (Pipeline.arrRef spec1 0)) (ix3 bi r d) = _
  rw [View.read_apply]
  show V c main_arg0 _ = V c main_arg0 _
  congr 1
  funext a
  apply Fin.ext
  match a with
  | ⟨0, _⟩ => show win1_0.index t (0 : Fin 3) * 8 + 1 * bi.val = bi.val; omega
  | ⟨1, _⟩ => show win1_0.index t (1 : Fin 3) * 256 + 1 * r.val = 256 * (t.val % 16) + r.val; omega
  | ⟨2, _⟩ => show win1_0.index t (2 : Fin 3) * 3 + 1 * d.val = d.val; omega

/-- The second cloud's block at point t: coordinate d of its point r is coordinate d of point 256 (t / 16) + r. -/
private theorem bblk_apply (c : Dev nD) (t : Fin cfg1.N) (bi : Fin 8) (r : Fin 256) (d : Fin 3) :
    bblk V c t (ix3 bi r d)
      = (V c main_arg1 : S8x4096x3.Idx → EReal) (ix3 bi ⟨256 * (t.val / 16) + r.val, by have := r.isLt; have := lt256 t; omega⟩ d) := by
  obtain ⟨e0, e1, e2⟩ := idxB t
  show ((cfg1.win 1).blk t).view.read (Elt Ideal) (V c (Pipeline.arrRef spec1 1)) (ix3 bi r d) = _
  rw [View.read_apply]
  show V c main_arg1 _ = V c main_arg1 _
  congr 1
  funext a
  apply Fin.ext
  match a with
  | ⟨0, _⟩ => show win1_1.index t (0 : Fin 3) * 8 + 1 * bi.val = bi.val; omega
  | ⟨1, _⟩ => show win1_1.index t (1 : Fin 3) * 256 + 1 * r.val = 256 * (t.val / 16) + r.val; omega
  | ⟨2, _⟩ => show win1_1.index t (2 : Fin 3) * 3 + 1 * d.val = d.val; omega

/-- So the blocks' points are the clouds' points. -/
private theorem bpt_ablk (c : Dev nD) (t : Fin cfg1.N) (bi : Fin 8) (j : Fin 256) :
    bpt (ablk V c t) bi j = pt (V c main_arg0) bi ⟨256 * (t.val % 16) + j.val, by have := j.isLt; omega⟩ :=
  funext fun d => ablk_apply V c t bi j d

private theorem bpt_bblk (c : Dev nD) (t : Fin cfg1.N) (bi : Fin 8) (r : Fin 256) :
    bpt (bblk V c t) bi r = pt (V c main_arg1) bi ⟨256 * (t.val / 16) + r.val, by have := r.isLt; have := lt256 t; omega⟩ :=
  funext fun d => bblk_apply V c t bi r d

/-! ## The running minimum -/

/-- The clipped squared distance from point j of tile k of the first cloud to point r of tile p of the second. -/
private def dst (c : Dev nD) (bi : Fin 8) (k : Fin 16) (j : Fin 256) (p : Fin 16) (r : Fin 256) : EReal :=
  pdist (pt (V c main_arg0) bi ⟨256 * k.val + j.val, by omega⟩) (pt (V c main_arg1) bi ⟨256 * p.val + r.val, by omega⟩)

/-- It depends on the tiles through their numbers only. -/
private theorem dst_congr (c : Dev nD) (bi : Fin 8) (k k' : Fin 16) (j : Fin 256) (p p' : Fin 16) (r : Fin 256)
    (hk : k.val = k'.val) (hp : p.val = p'.val) : dst V c bi k j p r = dst V c bi k' j p' r := by
  obtain rfl := Fin.ext hk
  obtain rfl := Fin.ext hp
  rfl

/-- One tile's step: what lies below the stored entry lies below the old entry, below the starting value, and below
    every distance from the tile's 256 points. -/
private theorem tile_le_iff (c : Dev nD) (t : Fin cfg1.N) (s : Vec Ideal S8x256 .f32) (bi : Fin 8) (r : Fin 256) (z : EReal) :
    z ≤ k1_pay2 (F := Ideal) (ablk V c t) (bblk V c t) s (ix2 bi r)
      ↔ z ≤ s (ix2 bi r) ∧ z ≤ start ∧ ∀ j : Fin 256,
          z ≤ dst V c bi ⟨t.val % 16, Nat.mod_lt _ (by norm_num)⟩ j ⟨t.val / 16, by have := lt256 t; omega⟩ r := by
  rw [pay2_col, le_min_iff, le_minFrom_iff]
  refine and_congr_right fun _ => and_congr_right fun _ => forall_congr' fun j => ?_
  rw [bpt_ablk, bpt_bblk]
  exact Iff.rfl

/-- THE RUNNING MINIMUM: what lies below the scratch entry (bi, r) after point n = 16 p + q is what lies below the
    starting value and below every distance from the first cloud's tiles 0 .. q to point 256 p + r of the second.
    By induction on the point: a row of tiles starts from the all-infinite block, every other point joins its tile
    to what the point before left, in the same row. -/
private theorem acc_le_iff (c : Dev nD) (bi : Fin 8) (r : Fin 256) (z : EReal) :
    ∀ (n : ℕ) (hn : n < cfg1.N), z ≤ acc V c n hn (ix2 bi r) ↔
      z ≤ start ∧ ∀ k : Fin 16, k.val ≤ n % 16 → ∀ j : Fin 256,
        z ≤ dst V c bi k j ⟨n / 16, by have := Nat.lt_of_lt_of_eq hn N_1; omega⟩ r := by
  intro n
  induction n with
  | zero =>
    intro hn
    have e : acc V c 0 hn = k1_pay2 (ablk V c ⟨0, hn⟩) (bblk V c ⟨0, hn⟩) (k1_pay1 (F := Ideal)) := acc_first V c ⟨0, hn⟩ rfl
    rw [e, tile_le_iff, pay1_col]
    constructor
    · intro h
      refine ⟨h.1, fun k hk j => ?_⟩
      exact (h.2.2 j).trans_eq (dst_congr V c bi _ k j _ _ r (by show 0 % 16 = k.val; omega) rfl)
    · intro h
      exact ⟨h.1, h.1, fun j => h.2 _ (le_refl _) j⟩
  | succ n ih =>
    intro hn
    have hn' : n + 1 < 256 := Nat.lt_of_lt_of_eq hn N_1
    by_cases h0 : (n + 1) % 16 = 0
    · have e : acc V c (n + 1) hn = k1_pay2 (ablk V c ⟨n + 1, hn⟩) (bblk V c ⟨n + 1, hn⟩) (k1_pay1 (F := Ideal)) := acc_first V c ⟨n + 1, hn⟩ h0
      rw [e, tile_le_iff, pay1_col]
      constructor
      · intro h
        refine ⟨h.1, fun k hk j => ?_⟩
        exact (h.2.2 j).trans_eq (dst_congr V c bi _ k j _ _ r (by show (n + 1) % 16 = k.val; omega) rfl)
      · intro h
        exact ⟨h.1, h.1, fun j => h.2 _ (le_refl _) j⟩
    · have e : acc V c (n + 1) hn = k1_pay2 (ablk V c ⟨n + 1, hn⟩) (bblk V c ⟨n + 1, hn⟩) (acc V c n (Nat.lt_of_succ_lt hn)) := acc_next V c ⟨n + 1, hn⟩ h0
      rw [e, tile_le_iff, ih]
      constructor
      · intro h
        refine ⟨h.1.1, fun k hk j => ?_⟩
        by_cases hk' : k.val ≤ n % 16
        · exact (h.1.2 k hk' j).trans_eq (dst_congr V c bi k k j _ _ r rfl (by show n / 16 = (n + 1) / 16; omega))
        · exact (h.2.2 j).trans_eq (dst_congr V c bi _ k j _ _ r (by show (n + 1) % 16 = k.val; omega) rfl)
      · intro h
        refine ⟨⟨h.1, fun k hk j => ?_⟩, h.1, fun j => h.2 _ (le_refl _) j⟩
        exact (h.2 k (by omega) j).trans_eq (dst_congr V c bi k k j _ _ r rfl (by show (n + 1) / 16 = n / 16; omega))

/-- At the last tile of a row the scratch entry is the specification's minimum over the whole first cloud: the
    sixteen tiles of 256 are the 4096 points. -/
private theorem acc_last (c : Dev nD) (t : Fin cfg1.N) (h : t.val % 16 = 15) (bi : Fin 8) (r : Fin 256) :
    acc V c t.val t.isLt (ix2 bi r)
      = near2 (V c main_arg0) (V c main_arg1) (ix2 bi ⟨256 * (t.val / 16) + r.val, by have := r.isLt; have := lt256 t; omega⟩) := by
  refine eq_of_forall_le_iff fun z => ?_
  rw [acc_le_iff V c bi r z t.val t.isLt]
  show _ ↔ z ≤ minFrom fun n : Fin 4096 => pdist (pt (V c main_arg0) bi n) (pt (V c main_arg1) bi ⟨256 * (t.val / 16) + r.val, by have := r.isLt; have := lt256 t; omega⟩)
  rw [le_minFrom_tiles]
  exact and_congr_right fun _ => ⟨fun hh k j => hh k (by omega) j, fun hh k _ j => hh k j⟩

/-! ## The array: the sixteen written blocks tile it -/

/-- What a point with t % 16 = 15 writes back is block t / 16 of the specification's array. -/
private theorem flushed_eq (c : Dev nD) (t : Fin cfg1.N) (hf : (cfg1.win 2).flush t = true) :
    (dat (F := Ideal) V c).flushed 2 t
      = ((cfg1.win 2).blk t).view.read (Elt Ideal) (near2 (V c main_arg0) (V c main_arg1)) := by
  have h15 : t.val % 16 = 15 := (flush1_2 t).mp hf
  obtain ⟨e0, e1⟩ := idxO t
  show (cfg1.win 2).cut (grid1.coords t) ((dat (F := Ideal) V c).after 2 t) = _
  rw [after_2]
  funext y
  have h0 : (y 0).val < 8 := (y 0).isLt
  have h1 : (y 1).val < 256 := (y 1).isLt
  have ht := lt256 t
  rw [View.read_apply]
  show acc V c t.val t.isLt ((cfg1.win 2).xinj (grid1.coords t) y) = near2 (V c main_arg0) (V c main_arg1) (((cfg1.win 2).blk t).view.emb y)
  have ex : (cfg1.win 2).xinj (grid1.coords t) y = ix2 (⟨(y 0).val, h0⟩ : Fin 8) (⟨(y 1).val, h1⟩ : Fin 256) := by
    funext a
    match a with
    | ⟨0, _⟩ => rfl
    | ⟨1, _⟩ => rfl
  have ee : ((cfg1.win 2).blk t).view.emb y
      = ix2 (⟨(y 0).val, h0⟩ : Fin 8) (⟨256 * (t.val / 16) + (y 1).val, by omega⟩ : Fin 4096) := by
    funext a
    apply Fin.ext
    match a with
    | ⟨0, _⟩ => show win1_2.index t (0 : Fin 2) * 8 + 1 * (y 0).val = (y 0).val; omega
    | ⟨1, _⟩ => show win1_2.index t (1 : Fin 2) * 256 + 1 * (y 1).val = 256 * (t.val / 16) + (y 1).val; omega
  rw [ex, ee]
  exact acc_last V c t h15 ⟨(y 0).val, h0⟩ ⟨(y 1).val, h1⟩

/-- Entry (bi, m) of the array is in the block written at point 16 (m / 256) + 15. -/
private theorem covered (i : S8x4096.Idx) :
    ∃ t : Fin cfg1.N, (cfg1.win 2).flush t = true ∧ i ∈ ((cfg1.win 2).blk t).view.set := by
  have h0 : (i 0).val < 8 := (i 0).isLt
  have h1 : (i 1).val < 4096 := (i 1).isLt
  have hlt : 16 * ((i 1).val / 256) + 15 < cfg1.N := Nat.lt_of_lt_of_eq (by omega : 16 * ((i 1).val / 256) + 15 < 256) N_1.symm
  refine ⟨⟨16 * ((i 1).val / 256) + 15, hlt⟩, (flush1_2 _).mpr (by show (16 * ((i 1).val / 256) + 15) % 16 = 15; omega), ?_⟩
  obtain ⟨e0, e1⟩ := idxO ⟨16 * ((i 1).val / 256) + 15, hlt⟩
  have e1' : win1_2.index ⟨16 * ((i 1).val / 256) + 15, hlt⟩ (1 : Fin 2) = (16 * ((i 1).val / 256) + 15) / 16 := e1
  show i ∈ ((View.whole main_v1).slice (win1_2.rect ⟨16 * ((i 1).val / 256) + 15, hlt⟩)).set
  rw [View.set_slice_whole, Rect.mem_set_unit]
  intro a
  match a with
  | ⟨0, _⟩ =>
    show win1_2.index ⟨16 * ((i 1).val / 256) + 15, hlt⟩ (0 : Fin 2) * 8 ≤ (i 0).val ∧ (i 0).val < win1_2.index ⟨16 * ((i 1).val / 256) + 15, hlt⟩ (0 : Fin 2) * 8 + 8
    omega
  | ⟨1, _⟩ =>
    show win1_2.index ⟨16 * ((i 1).val / 256) + 15, hlt⟩ (1 : Fin 2) * 256 ≤ (i 1).val ∧ (i 1).val < win1_2.index ⟨16 * ((i 1).val / 256) + 15, hlt⟩ (1 : Fin 2) * 256 + 256
    omega

/-- THE RESULT ARRAY: after the region every entry of its output array is the specification's minimum. -/
theorem result_eq (c : Dev nD) :
    ((dat (F := Ideal) V c).arrAt 2 cfg1.N : S8x4096.Idx → EReal) = near2 (V c main_arg0) (V c main_arg1) :=
  (dat (F := Ideal) V c).arrAt_eq_of_cover 2 (near2 (V c main_arg0) (V c main_arg1)) (flushed_eq V c) covered

end Cert.KernelIdeal.Near2

end
-- ==== Proof.lean ====
/-
  The two programs compute, for two clouds of 4096 points in 8 batches, the mean over the first cloud of the squared
  distance to the nearest point of the second, plus the mean over the second of the squared distance to the nearest
  point of the first; a squared distance is |x|^2 + |y|^2 - 2 (x . y), clipped below at 0.

  The kernel never forms the 4096 x 4096 table. Its first region walks a 16 x 16 grid of 256 x 256 tiles row by row,
  keeping in a scratch block the running minimum, over the tiles of the row met so far, of each tile's row minima, and
  writes the block out at the end of the row; its second region does the same for the column minima, walking column by
  column; the host then takes the two means and adds them. The reference forms the table and reduces it twice.

  Over the extended reals the products of the kernel's narrowed operands are the exact products, a sum over the three
  coordinates is the same sum on both sides, and a minimum of minima over a partition is the minimum over the whole:
  that is all the algebraic claim needs (what lies below a minimum taken from a starting value is what lies below
  the starting value and below every member), and it needs no finiteness. Both frames of the kernel are one argument
  stated for any float instance: each region's scratch is tracked from point to point at the running minimum, the
  output block is written only at a row's last tile and left alone elsewhere, and the arguments are read but never
  written. The ideal pass rewrote nothing, so there is nothing to preserve.
-/
import proofs.«129224_j45337674776760_1_alg».proof.Defs
import proofs.«129224_j45337674776760_1_alg».proof.Proof.Gen.Kernel
import proofs.«129224_j45337674776760_1_alg».proof.Proof.Gen.KernelIdeal
import proofs.«129224_j45337674776760_1_alg».proof.Proof.Gen.ReferenceIdeal
import proofs.«129224_j45337674776760_1_alg».proof.Proof.Gen.Pre_finite_inputs
import proofs.«129224_j45337674776760_1_alg».proof.Proof.Gen.ReferenceIdeal.Run
import proofs.«129224_j45337674776760_1_alg».proof.Proof.Bits.LaunchPost
import proofs.«129224_j45337674776760_1_alg».proof.Proof.LaunchPost
import proofs.«129224_j45337674776760_1_alg».proof.Proof.RefSide
import proofs.«129224_j45337674776760_1_alg».proof.Proof.Near1Value
import proofs.«129224_j45337674776760_1_alg».proof.Proof.Near2Value
import Idealize.ShloMosaic.Adequacy
import Idealize.ShloMosaic.Init

noncomputable section

namespace Cert.Proof

open Idealize.ShloMosaic Idealize.ShloMosaic.TcCoe Idealize.SL.Sem

/-- The three frames: the printed program and its idealization run by the same argument, stated once for any float
    instance; the reference is a line of host operations. -/
theorem frame_p : Cert.frame_Kernel := fun m ρ _ => Cert.Kernel.Launch.frame m ρ
theorem frame_pi : Cert.frame_KernelIdeal := fun m ρ _ => Cert.KernelIdeal.Launch.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference ends in the same two means and sum as the kernel's host operations, of its own two arrays of minima. -/
theorem ref_means (x0 x1 : (⟨Cert.ReferenceIdeal.S8x4096x3, .f32⟩ : BufTy).Contents (Elt Ideal)) :
    Cert.ReferenceIdeal.Read.val_main_v21 (F := Ideal) x0 x1
      = Cert.KernelIdeal.Launch.means (F := Ideal) (Cert.ReferenceIdeal.Read.val_main_v15 (F := Ideal) x0 x1)
          (Cert.ReferenceIdeal.Read.val_main_v16 (F := Ideal) x0 x1) := rfl

/-- Over the extended reals both programs end at the two means, summed, of the specification's two arrays of nearest
    squared distances: the kernel's regions leave exactly those arrays (the running minima tile by tile are the whole
    minima), and the reference's two reductions are them by definition. -/
theorem algebraic : Cert.algebraic_KernelIdeal_ReferenceIdeal := by
  intro m ρ m' ρ' _ hagree
  refine ⟨fun c => Cert.KernelIdeal.Launch.means (F := Ideal)
      (Cert.Chamfer.near1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Chamfer.near2 (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Launch.run_value (F := Ideal) m ρ)
    rw [Cert.KernelIdeal.Near1.result_eq, Cert.KernelIdeal.Near2.result_eq, Cert.KernelIdeal.Launch.V1_main_arg0, Cert.KernelIdeal.Launch.V1_main_arg1]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, ref_means, Cert.ReferenceIdeal.Chamfer.v15_eq,
      Cert.ReferenceIdeal.Chamfer.v16_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
